-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S128x128 .f32) (main_arg12 : FVec F S128x64 .f32) (main_arg13 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x64 .f32) (main_arg13 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x64 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S100000x1 : Shape := ⟨2, ![100000, 1]⟩
abbrev S5000x1 : Shape := ⟨2, ![5000, 1]⟩
abbrev S128x1 : Shape := ⟨2, ![128, 1]⟩
abbrev S1x64 : Shape := ⟨2, ![1, 64]⟩

abbrev nBuf : Space → Nat
  | .hbm => 98
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S1x128, .f32⟩
  | .hbm, ⟨32, _⟩ => ⟨S100000x128, .bf16⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .bf16⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S100000x128, .bf16⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .bf16⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .bf16⟩
  | .hbm, ⟨65, _⟩ => ⟨S100000x1, .i32⟩
  | .hbm, ⟨66, _⟩ => ⟨S128x128, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S128, .f32⟩
  | .hbm, ⟨71, _⟩ => ⟨S100000x1, .i32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128x1, .f32⟩
  | .hbm, ⟨77, _⟩ => ⟨S128x128, .f32⟩
  | .hbm, ⟨78, _⟩ => ⟨S128x128, .f32⟩
  | .hbm, ⟨79, _⟩ => ⟨S128x64, .f32⟩
  | .hbm, ⟨80, _⟩ => ⟨S1x64, .f32⟩
  | .hbm, ⟨81, _⟩ => ⟨S128x64, .f32⟩
  | .hbm, ⟨82, _⟩ => ⟨S128x64, .f32⟩
  | .hbm, ⟨83, _⟩ => ⟨S_, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128x1, .f32⟩
  | .hbm, ⟨89, _⟩ => ⟨S128x64, .f32⟩
  | .hbm, ⟨90, _⟩ => ⟨S128x64, .f32⟩
  | .hbm, ⟨91, _⟩ => ⟨S128x64, .f32⟩
  | .hbm, ⟨92, _⟩ => ⟨S_, .f32⟩
  | .hbm, ⟨93, _⟩ => ⟨S128, .f32⟩
  | .hbm, ⟨94, _⟩ => ⟨S128x1, .f32⟩
  | .hbm, ⟨95, _⟩ => ⟨S128x1, .f32⟩
  | .hbm, ⟨96, _⟩ => ⟨S128x64, .f32⟩
  | .hbm, ⟨97, _⟩ => ⟨S128x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .f32⟩
  | .local _ .vmem, ⟨19, _⟩ => ⟨S5000x128, .f32⟩
  | .local _ .vmem, ⟨20, _⟩ => ⟨S5000x128, .bf16⟩
  | .local _ .vmem, ⟨21, _⟩ => ⟨S5000x128, .bf16⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .bf16⟩
  | .local _ .vmem, ⟨26, _⟩ => ⟨S5000x128, .bf16⟩
  | .local _ .vmem, ⟨27, _⟩ => ⟨S5000x128, .bf16⟩
  | .local _ .vmem, ⟨28, _⟩ => ⟨S5000x128, .bf16⟩
  | .local _ .vmem, ⟨29, _⟩ => ⟨S5000x1, .i32⟩
  | .local _ .vmem, ⟨30, _⟩ => ⟨S5000x1, .i32⟩
  | .local _ .vmem, ⟨31, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call0_cst : Ref sig .tc := ⟨.hbm, 83, rfl⟩
abbrev main_call0_v0 : Ref sig .tc := ⟨.hbm, 84, rfl⟩
abbrev main_call0_cst_0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_cst_1 : Ref sig .tc := ⟨.hbm, 92, rfl⟩
abbrev main_call0_v7 : Ref sig .tc := ⟨.hbm, 93, rfl⟩
abbrev main_call0_v8 : Ref sig .tc := ⟨.hbm, 94, rfl⟩
abbrev main_call0_v9 : Ref sig .tc := ⟨.hbm, 95, rfl⟩
abbrev main_call0_v10 : Ref sig .tc := ⟨.hbm, 96, rfl⟩
abbrev main_v57 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  shapeCasts_S128x128_S128x128 : S128x128.ShapeCasts S128x128
  bcast_S_S100000 : S_.BroadcastsInDim S100000 (![] : Fin 0 → Fin S100000.rank)
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  reducesTo_S128x64_S128_d1 : S128x64.ReducesTo [1] S128
  h_S_ : 0 < S_.numel
  bcast_S128x1_S128x64_0_1 : S128x1.BroadcastsInDim S128x64 (![0, 1] : Fin 2 → Fin S128x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  scatter_S128_S100000x1_S100000_n_0_0_1_wf : ScatterDims.WF S128 S100000x1 S100000 [] [0] [0] 1
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .bf16 = 32 ∨ (Rect.block (s := S100000x128) S5000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .bf16 = 32 ∨ (Rect.block (s := S100000x128) S5000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S128x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x1 : Shape := ⟨2, ![100000, 1]⟩
abbrev S128x1 : Shape := ⟨2, ![128, 1]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S128x128, .f32⟩
  | .hbm, ⟨86, _⟩ => ⟨S100000x1, .i32⟩
  | .hbm, ⟨87, _⟩ => ⟨S128x128, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S128, .f32⟩
  | .hbm, ⟨92, _⟩ => ⟨S100000x1, .i32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128x1, .f32⟩
  | .hbm, ⟨98, _⟩ => ⟨S128x128, .f32⟩
  | .hbm, ⟨99, _⟩ => ⟨S128x128, .f32⟩
  | .hbm, ⟨100, _⟩ => ⟨S128x64, .f32⟩
  | .hbm, ⟨101, _⟩ => ⟨S1x64, .f32⟩
  | .hbm, ⟨102, _⟩ => ⟨S128x64, .f32⟩
  | .hbm, ⟨103, _⟩ => ⟨S128x64, .f32⟩
  | .hbm, ⟨104, _⟩ => ⟨S_, .f32⟩
  | .hbm, ⟨105, _⟩ => ⟨S128, .f32⟩
  | .hbm, ⟨106, _⟩ => ⟨S_, .f32⟩
  | .hbm, ⟨107, _⟩ => ⟨S128, .f32⟩
  | .hbm, ⟨108, _⟩ => ⟨S128, .f32⟩
  | .hbm, ⟨109, _⟩ => ⟨S128x1, .f32⟩
  | .hbm, ⟨110, _⟩ => ⟨S128x64, .f32⟩
  | .hbm, ⟨111, _⟩ => ⟨S128x64, .f32⟩
  | .hbm, ⟨112, _⟩ => ⟨S128x64, .f32⟩
  | .hbm, ⟨113, _⟩ => ⟨S_, .f32⟩
  | .hbm, ⟨114, _⟩ => ⟨S128, .f32⟩
  | .hbm, ⟨115, _⟩ => ⟨S128x1, .f32⟩
  | .hbm, ⟨116, _⟩ => ⟨S128x1, .f32⟩
  | .hbm, ⟨117, _⟩ => ⟨S128x64, .f32⟩
  | .hbm, ⟨118, _⟩ => ⟨S128x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_cst : Ref sig .tc := ⟨.hbm, 59, rfl⟩
abbrev main_call1_v0 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call2_cst : Ref sig .tc := ⟨.hbm, 81, rfl⟩
abbrev main_call2_v0 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call3_cst : Ref sig .tc := ⟨.hbm, 104, rfl⟩
abbrev main_call3_v0 : Ref sig .tc := ⟨.hbm, 105, rfl⟩
abbrev main_call3_cst_0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_cst_1 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_v71 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  reducesTo_S128x64_S128_d1 : S128x64.ReducesTo [1] S128
  h_S_ : 0 < S_.numel
  bcast_S128x1_S128x64_0_1 : S128x1.BroadcastsInDim S128x64 (![0, 1] : Fin 2 → Fin S128x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x64_S128x64_1_0_0_1_n_n_wf : DotDims.WF S128x128 S128x64 S128x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

class Facts : Prop extends Facts₀ where

variable [Facts]
-- ==== Proof.Spec.lean ====
/-
  The mathematics both programs compute, over the extended reals, index by index.

  A SAGE layer's dense step sends an aggregate `A`, the node features `h` (both 100000 × 128), two 128 × 128 weight
  matrices and a bias row to `relu (A · Wl + β + h · Wr)`: entry (n, j) is the larger of zero and
  `(Σₖ A[n,k] · Wl[k,j] + β[j]) + Σₖ h[n,k] · Wr[k,j]`. The two programs add the three summands in different orders;
  addition on the extended reals is commutative and associative (⊥ absorbs), so the order does not matter and no
  finiteness is used.

  The pooling step sums, for graph `g` and feature `d`, the rows `n` whose graph id, read as a signed integer, is `g`.
  One program selects the rows by a product with a 0/1 indicator (`0 · x = 0` and `1 · x = x` hold for every extended
  real), block of rows by block of rows; the other scatters every row onto its id and drops the ids outside `[0, 128)`.
-/
import Idealize.ShloMosaic.PureOps.Ideal
import Idealize.ShloMosaic.Lib.ValueIdx

noncomputable section

namespace Cert.Sage

open Idealize.ShloMosaic Idealize.ShloMosaic.ValueIdx

/-- Node features, aggregates: 100000 nodes by 128 features. -/
abbrev SNxD : Shape := ⟨2, ![100000, 128]⟩
/-- A weight matrix, and the pooled sums: 128 by 128. -/
abbrev SDxD : Shape := ⟨2, ![128, 128]⟩

/-- Entry (n, j) of `relu (A · Wl + β + h · Wr)`, the summands in the order `(A · Wl + β) + h · Wr`. -/
def linAt (A h : SNxD.Idx → EReal) (Wl : SDxD.Idx → EReal) (β : Fin 128 → EReal) (Wr : SDxD.Idx → EReal)
    (n : Fin 100000) (j : Fin 128) : EReal :=
  max (((∑ k : Fin 128, A (ix2 n k) * Wl (ix2 k j)) + β j) + ∑ k : Fin 128, h (ix2 n k) * Wr (ix2 k j)) 0

/-- `relu (A · Wl + β + h · Wr)` as an array. -/
def lin (A h : SNxD.Idx → EReal) (Wl : SDxD.Idx → EReal) (β : Fin 128 → EReal) (Wr : SDxD.Idx → EReal) :
    SNxD.Idx → EReal :=
  fun i => linAt A h Wl β Wr (i 0) (i 1)

theorem lin_ix2 (A h : SNxD.Idx → EReal) (Wl : SDxD.Idx → EReal) (β : Fin 128 → EReal) (Wr : SDxD.Idx → EReal)
    (n : Fin 100000) (j : Fin 128) : lin A h Wl β Wr (ix2 n j) = linAt A h Wl β Wr n j := rfl

/-- The same entry with the summands in the order `(A · Wl + h · Wr) + β`: addition of extended reals is commutative
    and associative. -/
theorem linAt_eq_order (A h : SNxD.Idx → EReal) (Wl : SDxD.Idx → EReal) (β : Fin 128 → EReal) (Wr : SDxD.Idx → EReal)
    (n : Fin 100000) (j : Fin 128) :
    max (((∑ k : Fin 128, A (ix2 n k) * Wl (ix2 k j)) + ∑ k : Fin 128, h (ix2 n k) * Wr (ix2 k j)) + β j) 0
      = linAt A h Wl β Wr n j := by
  unfold linAt
  rw [add_right_comm]

/-- Entry (g, d) of the per-graph sums: feature `d` of the rows whose id, read signed, is `g`. -/
def poolAt (h : SNxD.Idx → EReal) (ids : Fin 100000 → BitVec 32) (g d : Fin 128) : EReal :=
  ∑ n ∈ Finset.univ.filter (fun n : Fin 100000 => (ids n).toInt = (g.val : ℤ)), h (ix2 n d)

/-- The per-graph sums as an array. -/
def pool (h : SNxD.Idx → EReal) (ids : Fin 100000 → BitVec 32) : SDxD.Idx → EReal :=
  fun i => poolAt h ids (i 0) (i 1)

theorem pool_ix2 (h : SNxD.Idx → EReal) (ids : Fin 100000 → BitVec 32) (g d : Fin 128) :
    pool h ids (ix2 g d) = poolAt h ids g d := rfl

/-- The word of `g < 128` reads, signed, as `g`. -/
theorem toInt_ofNat_small (g : Fin 128) : (BitVec.ofNat 32 g.val).toInt = (g.val : ℤ) := by
  have hg := g.isLt
  have hn : (BitVec.ofNat 32 g.val).toNat = g.val := by
    rw [BitVec.toNat_ofNat]; exact Nat.mod_eq_of_lt (by omega)
  rw [BitVec.toInt_eq_toNat_of_lt (by rw [hn]; omega), hn]

/-- An id word equals the word of `g < 128` exactly when it reads, signed, as `g`. -/
theorem word_eq_iff_toInt (w : BitVec 32) (g : Fin 128) : w = BitVec.ofNat 32 g.val ↔ w.toInt = (g.val : ℤ) := by
  constructor
  · rintro rfl
    exact toInt_ofNat_small g
  · intro h
    apply BitVec.eq_of_toInt_eq
    rw [h, toInt_ofNat_small]

/-- The per-graph sum with the rows selected by a 0/1 factor: the factor is one where the id word is `g`'s and zero
    elsewhere, and `0 · x = 0`, `1 · x = x` for every extended real. -/
theorem poolAt_eq_indicator (h : SNxD.Idx → EReal) (ids : Fin 100000 → BitVec 32) (g d : Fin 128) :
    (∑ n : Fin 100000, (if ids n = BitVec.ofNat 32 g.val then (1 : EReal) else 0) * h (ix2 n d)) = poolAt h ids g d := by
  unfold poolAt
  rw [Finset.sum_filter]
  refine Finset.sum_congr rfl fun n _ => ?_
  by_cases hn : ids n = BitVec.ofNat 32 g.val
  · rw [if_pos hn, if_pos ((word_eq_iff_toInt _ _).mp hn), one_mul]
  · rw [if_neg hn, if_neg (fun e => hn ((word_eq_iff_toInt _ _).mpr e)), zero_mul]

end Cert.Sage

end
-- ==== Proof.Shared.lean ====
/-
  The host operations the two programs share, named once, and the whole network as one function of the arguments.

  Both programs prepare the edge endpoints the same way (row 0 of the edge array is the sources, wrapped once by the
  node count where negative; row 1 the destinations), aggregate a feature array `h` into `agg h` by gathering the
  source rows (the index clamped into range) and scatter-adding them onto the destinations (an id out of range is
  dropped), and finish with the same tail: per-graph counts, the mean, a 128 × 64 linear map, and `log_softmax`.
  These chains are carried as opaque functions: nothing below opens a gather, a scatter or the softmax. Between them
  sit the three dense steps `lin` and the pooling `pool` (Proof/Spec.lean), the only places where the two programs
  differ.
-/
import proofs.«429491_j53815940219287_2_alg».proof.ReferenceIdeal
import proofs.«429491_j53815940219287_2_alg».proof.Proof.Gen.ReferenceIdeal
import proofs.«429491_j53815940219287_2_alg».proof.Proof.Spec
import Idealize.ShloMosaic.Lib.Pipeline.Value

noncomputable section

namespace Cert.Sage

open Idealize.ShloMosaic Idealize.ShloMosaic.ValueIdx Cert.ReferenceIdeal Cert.ReferenceIdeal.Gen

/-- A float array at the extended reals. -/
abbrev FA (S : Shape) : Type := FVec Ideal S .f32
/-- A 32-bit integer array. -/
abbrev IA (S : Shape) : Type := IVec S 32

/-- The edge sources: row 0 of the edge array. -/
def src (e : IA S2x1600000) : IA S1600000 :=
  shapeCast _ (extractStridedSlice S1x1600000 ![0, 0] e slices_S2x1600000_S1x1600000_0_0) shapeCasts_S1x1600000_S1600000

/-- The edge destinations: row 1 of the edge array. -/
def dst (e : IA S2x1600000) : IA S1600000 :=
  shapeCast _ (extractStridedSlice S1x1600000 ![1, 0] e slices_S2x1600000_S1x1600000_1_0) shapeCasts_S1x1600000_S1600000

/-- The sources as gather indices: a negative one wrapped once by the node count, laid out as a column. -/
def srcIdx (s : IA S1600000) : IA S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The neighbour aggregate: the source rows of `h` gathered, then scatter-added onto the destinations from zero. -/
def agg (h : FA S100000x128) (s d : IA S1600000) : FA S100000x128 :=
  Host.scatterAdd (F := Ideal) scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h (srcIdx s))

/-- A bias vector as a function of the column. -/
def row (b : FA S128) : Fin 128 → EReal := fun j => b (ix1 j)

/-- The graph ids as a function of the node. -/
def col (ids : IA S100000) : Fin 100000 → BitVec 32 := fun n => ids (ix1 n)

/-- How many nodes each graph has: ones scatter-added onto the graph ids. -/
def counts (ids : IA S100000) : FA S128 :=
  Host.scatterAdd (F := Ideal) scatter_S128_S100000x1_S100000_n_0_0_1
    (broadcastInDim S128 ![] bcast_S_S128 (constant S_ .f32 0x00000000#32))
    (broadcastInDim S100000x1 ![0] bcast_S100000_S100000x1_0 ids)
    (broadcastInDim S100000 ![] bcast_S_S100000 (constant S_ .f32 0x3F800000#32))

/-- The per-graph mean: the sums divided by the count, the count at least one. -/
def meanOf (sums : FA S128x128) (ids : IA S100000) : FA S128x128 :=
  Host.divf sums
    (broadcastInDim S128x128 ![0, 1] bcast_S128x1_S128x128_0_1
      (broadcastInDim S128x1 ![0] bcast_S128_S128x1_0
        (maximumf (counts ids) (broadcastInDim S128 ![] bcast_S_S128 (constant S_ .f32 0x3F800000#32)))))

/-- The logits: the mean through the final linear map, plus its bias. -/
def logits (sums : FA S128x128) (ids : IA S100000) (Wfc : FA S128x64) (bfc : FA S64) : FA S128x64 :=
  addf (Host.dotGeneral dot_S128x128_S128x64_S128x64_1_0_0_1_n_n none (meanOf sums ids) Wfc)
    (broadcastInDim S128x64 ![0, 1] bcast_S1x64_S128x64_0_1 (broadcastInDim S1x64 ![1] bcast_S64_S1x64_1 bfc))

/-- A row's maximum, floored at minus infinity, spread back over the row. -/
def rowMax (z : FA S128x64) : FA S128x64 :=
  broadcastInDim S128x64 ![0, 1] bcast_S128x1_S128x64_0_1
    (broadcastInDim S128x1 ![0] bcast_S128_S128x1_0
      (maximumf (broadcastInDim S128 ![] bcast_S_S128 (constant S_ .f32 0xFF800000#32))
        (Host.reduce FloatOps.maximumf z (constant S_ .f32 0xFF800000#32) reducesTo_S128x64_S128_d1 h_S_)))

/-- `log_softmax` along the rows, as jax spells it: shift by the row maximum, subtract the log of the row's sum of
    exponentials. -/
def logSoftmax (z : FA S128x64) : FA S128x64 :=
  subf (subf z (rowMax z))
    (broadcastInDim S128x64 ![0, 1] bcast_S128x1_S128x64_0_1
      (Host.log
        (broadcastInDim S128x1 ![0] bcast_S128_S128x1_0
          (Host.reduceAdd (Host.exp (subf z (rowMax z))) (constant S_ .f32 0x00000000#32) reducesTo_S128x64_S128_d1 h_S_))))

/-- Everything after the pooling. -/
def tail (sums : FA S128x128) (ids : IA S100000) (Wfc : FA S128x64) (bfc : FA S64) : FA S128x64 :=
  logSoftmax (logits sums ids Wfc bfc)

/-- One SAGE layer: the dense step over the aggregate of `h` and `h` itself. -/
def layer (h : FA S100000x128) (e : IA S2x1600000) (Wl : FA S128x128) (b : FA S128) (Wr : FA S128x128) : FA S100000x128 :=
  lin (agg h (src e) (dst e)) h Wl (row b) Wr

/-- The network: three layers, the pooling, the tail. -/
def net (x : FA S100000x128) (e : IA S2x1600000) (ids : IA S100000)
    (Wl0 : FA S128x128) (b0 : FA S128) (Wr0 : FA S128x128)
    (Wl1 : FA S128x128) (b1 : FA S128) (Wr1 : FA S128x128)
    (Wl2 : FA S128x128) (b2 : FA S128) (Wr2 : FA S128x128)
    (Wfc : FA S128x64) (bfc : FA S64) : FA S128x64 :=
  tail (pool (layer (layer (layer x e Wl0 b0 Wr0) e Wl1 b1 Wr1) e Wl2 b2 Wr2) (col ids)) ids Wfc bfc

end Cert.Sage

end
-- ==== Proof.KReg0.lean ====
/-
  Region 0's result array as one function of the arrays the region finds: the dense SAGE step.
-/
import proofs.«429491_j53815940219287_2_alg».proof.Proof.Gen.KernelIdeal.Frame
import proofs.«429491_j53815940219287_2_alg».proof.Proof.Spec
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen

/-! ## The two products of the body, read at an index -/

/-- The left operand of the body's product, at output index `i` and contraction index `q`, on its row axis: the output's row. -/
theorem dotL0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On its column axis: the contraction index. -/
theorem dotL0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand on its row axis: the contraction index. -/
theorem dotR0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On its column axis: the output's column. -/
theorem dotR0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a 5000 × 128 block with a 128 × 128 matrix into the zero accumulator, at entry (p, q): the sum over
    `k` of the row's entries times the column's. -/
theorem mm0_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dotL0_0 _ _
    | ⟨1, _⟩ => exact (dotL0_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dotR0_0 _ _).trans hk
    | ⟨1, _⟩ => exact dotR0_1 _ _)
  rw [el, er]

/-- The bias row spread over the block's rows, at entry (p, q): the row's entry `q`. -/
theorem bias0_apply (x3 : Vec Ideal S1x128 .f32) (p : Fin 5000) (q : Fin 128) :
    broadcastTo S5000x128 x3 broadcasts_S1x128_S5000x128 (ix2 p q) = x3 (ix2 (0 : Fin 1) q) :=
  broadcastTo_apply x3 broadcasts_S1x128_S5000x128 (ix2 p q) (ix2 (0 : Fin 1) q) (fun a => match a with
    | ⟨0, _⟩ => by show (0 : ℕ) = if (1 : ℕ) = 1 then 0 else _; rw [if_pos rfl]
    | ⟨1, _⟩ => by show q.val = if (128 : ℕ) = 1 then 0 else q.val; rw [if_neg (by decide)])

/-- THE BODY'S ARITHMETIC at entry (p, q) of the block: the casts are the identity on the extended reals, each product
    into the zero accumulator is its sum, the bias row is spread over the rows, and the larger of the total and zero
    is kept. -/
theorem pay0_apply (x0 x1 : Vec Ideal S5000x128 .f32) (x2 x4 : Vec Ideal S128x128 .f32) (x3 : Vec Ideal S1x128 .f32)
    (p : Fin 5000) (q : Fin 128) :
    (k0_pay1 (F := Ideal) x0 x1 x2 x4 x3 : S5000x128.Idx → EReal) (ix2 p q)
      = max (((∑ k : Fin 128, x0 (ix2 p k) * x2 (ix2 k q)) + ∑ k : Fin 128, x1 (ix2 p k) * x4 (ix2 k q)) + x3 (ix2 (0 : Fin 1) q)) 0 := by
  unfold k0_pay1
  simp only [shapeCast_self]
  rw [truncf_apply, maximumf_apply, addf_apply, addf_apply, mm0_apply, mm0_apply, bias0_apply, broadcast_apply]
  simp only [truncf_apply]
  exact congrArg (max _) Ideal.ofBits_zero_f32

/-! ## From the blocks to the array -/

variable (V : (c : Dev nD) → (b : Ref sig .tc) → Buf (Elt Ideal) ((c : Thread nD τ).loc b))

theorem zeroOff0 : (![0, 0] : Fin 2 → Nat) = fun _ => 0 := funext fun a => by fin_cases a <;> rfl

/-- The index maps over the grid: the aggregate, the features and the output move down the rows one block a point; the
    two weight matrices and the bias row stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregate's block at point `t` is rows `5000 t … 5000 t + 4999` of the array. -/
theorem blk0_0_apply (c : Dev nD) (t : Fin cfg0.N) (p : Fin 5000) (k : Fin 128) (n : Fin 100000) (hn : n.val = 5000 * t.val + p.val) :
    (iblk0 V c 0 t : S5000x128.Idx → EReal) (ix2 p k) = (V c main_v13 : S100000x128.Idx → EReal) (ix2 n k) := by
  obtain ⟨e0, e1, -⟩ := idx_facts0 t
  unfold iblk0
  rw [View.read_apply]
  show (V c main_v13 : S100000x128.Idx → EReal) _ = (V c main_v13 : S100000x128.Idx → EReal) _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

theorem blk0_1_apply (c : Dev nD) (t : Fin cfg0.N) (p : Fin 5000) (k : Fin 128) (n : Fin 100000) (hn : n.val = 5000 * t.val + p.val) :
    (iblk0 V c 1 t : S5000x128.Idx → EReal) (ix2 p k) = (V c main_arg0 : S100000x128.Idx → EReal) (ix2 n k) := by
  obtain ⟨-, -, e0, e1, -⟩ := idx_facts0 t
  unfold iblk0
  rw [View.read_apply]
  show (V c main_arg0 : S100000x128.Idx → EReal) _ = (V c main_arg0 : S100000x128.Idx → EReal) _
  congr 1
  funext a
  apply Fin.ext
  match a with
  | ⟨0, _⟩ => show win0_1.index t (0 : Fin 2) * 5000 + 1 * p.val = n.val; rw [e0, hn]; omega
  | ⟨1, _⟩ => show win0_1.index t (1 : Fin 2) * 128 + 1 * k.val = k.val; rw [e1]; omega

theorem blk0_2_apply (c : Dev nD) (t : Fin cfg0.N) (k q : Fin 128) :
    (iblk0 V c 2 t : S128x128.Idx → EReal) (ix2 k q) = (V c main_arg3 : S128x128.Idx → EReal) (ix2 k q) := by
  obtain ⟨-, -, -, -, e0, e1, -⟩ := idx_facts0 t
  unfold iblk0
  rw [View.read_apply]
  show (V c main_arg3 : S128x128.Idx → EReal) _ = (V c main_arg3 : S128x128.Idx → EReal) _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem blk0_3_apply (c : Dev nD) (t : Fin cfg0.N) (q : Fin 128) :
    (iblk0 V c 3 t : S1x128.Idx → EReal) (ix2 (0 : Fin 1) q) = (V c main_v14 : S1x128.Idx → EReal) (ix2 (0 : Fin 1) q) := by
  obtain ⟨-, -, -, -, -, -, e0, e1, -⟩ := idx_facts0 t
  unfold iblk0
  rw [View.read_apply]
  show (V c main_v14 : S1x128.Idx → EReal) _ = (V c main_v14 : S1x128.Idx → EReal) _
  congr 1
  funext a
  apply Fin.ext
  match a with
  | ⟨0, _⟩ => show win0_3.index t (0 : Fin 2) * 1 + 1 * 0 = 0; rw [e0]
  | ⟨1, _⟩ => show win0_3.index t (1 : Fin 2) * 128 + 1 * q.val = q.val; rw [e1]; omega

theorem blk0_4_apply (c : Dev nD) (t : Fin cfg0.N) (k q : Fin 128) :
    (iblk0 V c 4 t : S128x128.Idx → EReal) (ix2 k q) = (V c main_arg5 : S128x128.Idx → EReal) (ix2 k q) := by
  obtain ⟨-, -, -, -, -, -, -, -, e0, e1, -⟩ := idx_facts0 t
  unfold iblk0
  rw [View.read_apply]
  show (V c main_arg5 : S128x128.Idx → EReal) _ = (V c main_arg5 : S128x128.Idx → EReal) _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Entry (p, q) of the output's block at point `t` sits in the array at row `5000 t + p`, column `q`. -/
theorem emb0_5 (t : Fin cfg0.N) (p : Fin 5000) (q : Fin 128) (n : Fin 100000) (hn : n.val = 5000 * t.val + p.val) :
    ((cfg0.win 5).blk t).view.emb (ix2 p q) = (ix2 n q : S100000x128.Idx) := by
  obtain ⟨-, -, -, -, -, -, -, -, -, -, e0, e1⟩ := idx_facts0 t
  funext a
  apply Fin.ext
  match a with
  | ⟨0, _⟩ => show win0_5.index t (0 : Fin 2) * 5000 + 1 * p.val = n.val; rw [e0, hn]; omega
  | ⟨1, _⟩ => show win0_5.index t (1 : Fin 2) * 128 + 1 * q.val = q.val; rw [e1]; omega

/-- WHAT POINT `t` WRITES BACK is block `t` of the dense step of the arrays the region was entered with. -/
theorem flushed0_eq (c : Dev nD) (t : Fin cfg0.N) :
    (dat0 (F := Ideal) V c).flushed 5 t = ((cfg0.win 5).blk t).view.read (Elt Ideal)
      (Cert.Sage.lin (V c main_v13) (V c main_arg0) (V c main_arg3)
        (fun j => (V c main_v14 : S1x128.Idx → EReal) (ix2 (0 : Fin 1) j)) (V c main_arg5)) := by
  show (cfg0.win 5).cut (grid0.coords t) ((dat0 V c).after 5 t) = _
  rw [after0_5]
  unfold out0_5
  rw [View.canon_unit_zero zeroOff0]
  simp only [View.ld_unit_zero (S := S5000x128) zeroOff0, View.ld_unit_zero (S := S128x128) zeroOff0, View.ld_unit_zero (S := S1x128) zeroOff0]
  funext j
  obtain ⟨p, q, rfl⟩ : ∃ (p : Fin 5000) (q : Fin 128), j = ix2 p q := ⟨j 0, j 1, eq_ix2 j⟩
  have ht : t.val < 20 := Nat.lt_of_lt_of_eq t.isLt (show cfg0.N = 20 from N_0)
  have hn : (⟨5000 * t.val + p.val, by omega⟩ : Fin 100000).val = 5000 * t.val + p.val := rfl
  rw [View.read_apply, emb0_5 t p q _ hn]
  show (k0_pay1 (F := Ideal) (iblk0 V c 0 t) (iblk0 V c 1 t) (iblk0 V c 2 t) (iblk0 V c 4 t) (iblk0 V c 3 t) : S5000x128.Idx → EReal) (ix2 p q)
    = Cert.Sage.lin (V c main_v13) (V c main_arg0) (V c main_arg3)
        (fun j => (V c main_v14 : S1x128.Idx → EReal) (ix2 (0 : Fin 1) j)) (V c main_arg5) (ix2 _ q)
  rw [pay0_apply, Cert.Sage.lin_ix2, ← Cert.Sage.linAt_eq_order]
  simp only [blk0_0_apply V c t p _ _ hn, blk0_1_apply V c t p _ _ hn, blk0_2_apply V c t, blk0_3_apply V c t, blk0_4_apply V c t]

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v15).slice (win0_5.rect t)).set ↔ _
  rw [View.set_slice_whole, Rect.mem_set_unit]
  exact Iff.rfl

/-- Every row of the array is in the block of the point `row / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, -, -, -, -, e0, e1⟩ := idx_facts0 ⟨(i 0).val / 5000, hlt⟩
  refine ⟨⟨(i 0).val / 5000, hlt⟩, flush0_5 _, ?_⟩
  rw [mem_blk0]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]; omega

/-- After the pipeline's twenty points the output array of region 0 holds `relu (A · Wl + β + h · Wr)` of the
    arrays the region was entered with. -/
theorem region0 (c : Dev nD) :
    ((dat0 (F := Ideal) V c).arrAt 5 cfg0.N : S100000x128.Idx → EReal)
      = Cert.Sage.lin (V c main_v13) (V c main_arg0) (V c main_arg3)
          (fun j => (V c main_v14 : S1x128.Idx → EReal) (ix2 (0 : Fin 1) j)) (V c main_arg5) :=
  (dat0 (F := Ideal) V c).arrAt_eq_of_cover 5 _ (fun t _ => flushed0_eq V c t) cover0

end Cert.KernelIdeal.RegionValue

end
-- ==== Proof.KB12.lean ====
/-
  The kernel program's buffers at its first two segment boundaries: after the host operations that prepare the edge
  endpoints and the first aggregate, and after the first dense region. Every argument buffer still holds its launch
  contents; the endpoints are the shared `src` / `dst`; the first region's output is the first SAGE layer.
-/
import proofs.«429491_j53815940219287_2_alg».proof.Proof.Gen.KernelIdeal.Frame
import proofs.«429491_j53815940219287_2_alg».proof.Proof.Shared
import proofs.«429491_j53815940219287_2_alg».proof.Proof.KReg0
import Idealize.ShloMosaic.Lib.StableHlo.Run
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg) (c : Dev nD)

/-- @main's fourteen argument buffers. -/
def argRefs : List (Ref sig .tc) :=
  [main_arg0, main_arg1, main_arg2, main_arg3, main_arg4, main_arg5, main_arg6, main_arg7, main_arg8, main_arg9,
    main_arg10, main_arg11, main_arg12, main_arg13]

/-- The launch contents of the arguments, typed as the shared functions take them. -/
abbrev a0 : Cert.Sage.FA Cert.ReferenceIdeal.S100000x128 := m ((c : Thread nD τ).loc main_arg0)
abbrev a1 : Cert.Sage.IA Cert.ReferenceIdeal.S2x1600000 := m ((c : Thread nD τ).loc main_arg1)
abbrev a2 : Cert.Sage.IA Cert.ReferenceIdeal.S100000 := m ((c : Thread nD τ).loc main_arg2)
abbrev a3 : Cert.Sage.FA Cert.ReferenceIdeal.S128x128 := m ((c : Thread nD τ).loc main_arg3)
abbrev a4 : Cert.Sage.FA Cert.ReferenceIdeal.S128 := m ((c : Thread nD τ).loc main_arg4)
abbrev a5 : Cert.Sage.FA Cert.ReferenceIdeal.S128x128 := m ((c : Thread nD τ).loc main_arg5)
abbrev a6 : Cert.Sage.FA Cert.ReferenceIdeal.S128x128 := m ((c : Thread nD τ).loc main_arg6)
abbrev a7 : Cert.Sage.FA Cert.ReferenceIdeal.S128 := m ((c : Thread nD τ).loc main_arg7)
abbrev a8 : Cert.Sage.FA Cert.ReferenceIdeal.S128x128 := m ((c : Thread nD τ).loc main_arg8)
abbrev a9 : Cert.Sage.FA Cert.ReferenceIdeal.S128x128 := m ((c : Thread nD τ).loc main_arg9)
abbrev a10 : Cert.Sage.FA Cert.ReferenceIdeal.S128 := m ((c : Thread nD τ).loc main_arg10)
abbrev a11 : Cert.Sage.FA Cert.ReferenceIdeal.S128x128 := m ((c : Thread nD τ).loc main_arg11)
abbrev a12 : Cert.Sage.FA Cert.ReferenceIdeal.S128x64 := m ((c : Thread nD τ).loc main_arg12)
abbrev a13 : Cert.Sage.FA Cert.ReferenceIdeal.S64 := m ((c : Thread nD τ).loc main_arg13)

/-- The three SAGE layers of the launch arguments. -/
abbrev H1 : Cert.Sage.FA Cert.ReferenceIdeal.S100000x128 := Cert.Sage.layer (a0 m c) (a1 m c) (a3 m c) (a4 m c) (a5 m c)
abbrev H2 : Cert.Sage.FA Cert.ReferenceIdeal.S100000x128 := Cert.Sage.layer (H1 m c) (a1 m c) (a6 m c) (a7 m c) (a8 m c)
abbrev H3 : Cert.Sage.FA Cert.ReferenceIdeal.S100000x128 := Cert.Sage.layer (H2 m c) (a1 m c) (a9 m c) (a10 m c) (a11 m c)

/-- The dense step is a function of its five arrays. -/
theorem lin_congr {A A' h h' : Cert.Sage.SNxD.Idx → EReal} {Wl Wl' Wr Wr' : Cert.Sage.SDxD.Idx → EReal} {β β' : Fin 128 → EReal}
    (hA : A = A') (hh : h = h') (hWl : Wl = Wl') (hβ : β = β') (hWr : Wr = Wr') :
    Cert.Sage.lin A h Wl β Wr = Cert.Sage.lin A' h' Wl' β' Wr' := by
  subst hA hh hWl hβ hWr; rfl

theorem mem_arg0 : main_arg0 ∈ argRefs := by decide
theorem mem_arg3 : main_arg3 ∈ argRefs := by decide
theorem mem_arg5 : main_arg5 ∈ argRefs := by decide

/-- The edge sources after the first host stretch: row 0 of the edge array. -/
theorem W1_src : (W1 m ρ c (Proc.devRef .tc main_v1) : Cert.Sage.IA Cert.ReferenceIdeal.S1600000) = Cert.Sage.src (a1 m c) := by
  show StableHlo.after hostOps0 (W0 m ρ c) (Proc.devRef .tc main_v1) = _
  after_results
  rfl

/-- The edge destinations after the first host stretch: row 1 of the edge array. -/
theorem W1_dst : (W1 m ρ c (Proc.devRef .tc main_v3) : Cert.Sage.IA Cert.ReferenceIdeal.S1600000) = Cert.Sage.dst (a1 m c) := by
  show StableHlo.after hostOps0 (W0 m ρ c) (Proc.devRef .tc main_v3) = _
  after_results
  rfl

/-- The first host stretch leaves the aggregate of the input features: the same gather and scatter-add, operation by
    operation, as the shared `agg`. -/
theorem W1_agg : (W1 m ρ c (Proc.devRef .tc main_v13) : Cert.Sage.FA Cert.ReferenceIdeal.S100000x128)
    = Cert.Sage.agg (a0 m c) (Cert.Sage.src (a1 m c)) (Cert.Sage.dst (a1 m c)) := by
  show StableHlo.after hostOps0 (W0 m ρ c) (Proc.devRef .tc main_v13) = _
  after_results
  rfl

/-- The bias reshaped to one row, read along that row, is the bias. -/
theorem W1_bias : (fun j : Fin 128 => (V1 m ρ c main_v14 : S1x128.Idx → EReal) (ix2 (0 : Fin 1) j)) = Cert.Sage.row (a4 m c) := by
  funext j
  have e : (W1 m ρ c (Proc.devRef .tc main_v14) : S1x128.Idx → EReal)
      = shapeCast S1x128 (a4 m c) shapeCasts_S128_S1x128 := by
    show StableHlo.after hostOps0 (W0 m ρ c) (Proc.devRef .tc main_v14) = _
    after_results
    rfl
  show (W1 m ρ c (Proc.devRef .tc main_v14) : S1x128.Idx → EReal) (ix2 (0 : Fin 1) j) = _
  rw [e]
  exact shapeCast_a_1a_apply _ _ 0 j

/-- After the first host stretch every argument buffer holds its launch contents. -/
theorem W1_arg (b : Ref sig .tc) (hb : b ∈ argRefs) : W1 m ρ c (Proc.devRef .tc b) = m ((c : Thread nD τ).loc b) := by
  simp only [argRefs, List.mem_cons, List.not_mem_nil, or_false] at hb
  rcases hb with rfl | rfl | rfl | rfl | rfl | rfl | rfl | rfl | rfl | rfl | rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- After region 0 every argument buffer holds its launch contents. -/
theorem W2_arg (b : Ref sig .tc) (hb : b ∈ argRefs) : W2 m ρ c (Proc.devRef .tc b) = m ((c : Thread nD τ).loc b) := by
  refine Eq.trans ?_ (W1_arg m ρ c b hb)
  simp only [argRefs, List.mem_cons, List.not_mem_nil, or_false] at hb
  rcases hb with rfl | rfl | rfl | rfl | rfl | rfl | rfl | rfl | rfl | rfl | rfl | rfl | rfl | rfl
  · exact (W2_arr m ρ c 1).trans (((dat0 (V1 m ρ) c).arrAt_in 1 rfl _).trans (A_eq0 (V1 m ρ) c 1))
  · exact W2_of_ne m ρ c main_arg1 (by decide)
  · exact W2_of_ne m ρ c main_arg2 (by decide)
  · exact (W2_arr m ρ c 2).trans (((dat0 (V1 m ρ) c).arrAt_in 2 rfl _).trans (A_eq0 (V1 m ρ) c 2))
  · exact W2_of_ne m ρ c main_arg4 (by decide)
  · exact (W2_arr m ρ c 4).trans (((dat0 (V1 m ρ) c).arrAt_in 4 rfl _).trans (A_eq0 (V1 m ρ) c 4))
  · exact W2_of_ne m ρ c main_arg6 (by decide)
  · exact W2_of_ne m ρ c main_arg7 (by decide)
  · exact W2_of_ne m ρ c main_arg8 (by decide)
  · exact W2_of_ne m ρ c main_arg9 (by decide)
  · exact W2_of_ne m ρ c main_arg10 (by decide)
  · exact W2_of_ne m ρ c main_arg11 (by decide)
  · exact W2_of_ne m ρ c main_arg12 (by decide)
  · exact W2_of_ne m ρ c main_arg13 (by decide)

/-- After region 0 the buffer of the edge sources holds them. -/
theorem W2_src : (W2 m ρ c (Proc.devRef .tc main_v1) : Cert.Sage.IA Cert.ReferenceIdeal.S1600000) = Cert.Sage.src (a1 m c) :=
  (W2_of_ne m ρ c main_v1 (by decide)).trans (W1_src m ρ c)

/-- After region 0 the buffer of the edge destinations holds them. -/
theorem W2_dst : (W2 m ρ c (Proc.devRef .tc main_v3) : Cert.Sage.IA Cert.ReferenceIdeal.S1600000) = Cert.Sage.dst (a1 m c) :=
  (W2_of_ne m ρ c main_v3 (by decide)).trans (W1_dst m ρ c)

/-- Region 0's output is the first layer. -/
theorem W2_h : (W2 m ρ c (Proc.devRef .tc main_v15) : Cert.Sage.FA Cert.ReferenceIdeal.S100000x128) = H1 m c := by
  refine (W2_arr m ρ c 5).trans ?_
  refine (Cert.KernelIdeal.RegionValue.region0 (V1 m ρ) c).trans ?_
  exact lin_congr (W1_agg m ρ c) (W1_arg m ρ c main_arg0 mem_arg0) (W1_arg m ρ c main_arg3 mem_arg3)
    (W1_bias m ρ c) (W1_arg m ρ c main_arg5 mem_arg5)

end Cert.KernelIdeal.Fold

end
-- ==== Proof.KReg1.lean ====
/-
  Region 1's result array as one function of the arrays the region finds: the dense SAGE step.
-/
import proofs.«429491_j53815940219287_2_alg».proof.Proof.Gen.KernelIdeal.Frame
import proofs.«429491_j53815940219287_2_alg».proof.Proof.Spec
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen

/-! ## The two products of the body, read at an index -/

/-- The left operand of the body's product, at output index `i` and contraction index `q`, on its row axis: the output's row. -/
theorem dotL1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On its column axis: the contraction index. -/
theorem dotL1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand on its row axis: the contraction index. -/
theorem dotR1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On its column axis: the output's column. -/
theorem dotR1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a 5000 × 128 block with a 128 × 128 matrix into the zero accumulator, at entry (p, q): the sum over
    `k` of the row's entries times the column's. -/
theorem mm1_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dotL1_0 _ _
    | ⟨1, _⟩ => exact (dotL1_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dotR1_0 _ _).trans hk
    | ⟨1, _⟩ => exact dotR1_1 _ _)
  rw [el, er]

/-- The bias row spread over the block's rows, at entry (p, q): the row's entry `q`. -/
theorem bias1_apply (x3 : Vec Ideal S1x128 .f32) (p : Fin 5000) (q : Fin 128) :
    broadcastTo S5000x128 x3 broadcasts_S1x128_S5000x128 (ix2 p q) = x3 (ix2 (0 : Fin 1) q) :=
  broadcastTo_apply x3 broadcasts_S1x128_S5000x128 (ix2 p q) (ix2 (0 : Fin 1) q) (fun a => match a with
    | ⟨0, _⟩ => by show (0 : ℕ) = if (1 : ℕ) = 1 then 0 else _; rw [if_pos rfl]
    | ⟨1, _⟩ => by show q.val = if (128 : ℕ) = 1 then 0 else q.val; rw [if_neg (by decide)])

/-- THE BODY'S ARITHMETIC at entry (p, q) of the block: the casts are the identity on the extended reals, each product
    into the zero accumulator is its sum, the bias row is spread over the rows, and the larger of the total and zero
    is kept. -/
theorem pay1_apply (x0 : Vec Ideal S5000x128 .f32) (x1 : Vec Ideal S5000x128 .bf16) (x2 x4 : Vec Ideal S128x128 .f32) (x3 : Vec Ideal S1x128 .f32)
    (p : Fin 5000) (q : Fin 128) :
    (k1_pay1 (F := Ideal) x0 x1 x2 x4 x3 : S5000x128.Idx → EReal) (ix2 p q)
      = max (((∑ k : Fin 128, x0 (ix2 p k) * x2 (ix2 k q)) + ∑ k : Fin 128, x1 (ix2 p k) * x4 (ix2 k q)) + x3 (ix2 (0 : Fin 1) q)) 0 := by
  unfold k1_pay1
  simp only [shapeCast_self]
  rw [truncf_apply, maximumf_apply, addf_apply, addf_apply, mm1_apply, mm1_apply, bias1_apply, broadcast_apply]
  simp only [truncf_apply]
  exact congrArg (max _) Ideal.ofBits_zero_f32

/-! ## From the blocks to the array -/

variable (V : (c : Dev nD) → (b : Ref sig .tc) → Buf (Elt Ideal) ((c : Thread nD τ).loc b))

theorem zeroOff1 : (![0, 0] : Fin 2 → Nat) = fun _ => 0 := funext fun a => by fin_cases a <;> rfl

/-- The index maps over the grid: the aggregate, the features and the output move down the rows one block a point; the
    two weight matrices and the bias row stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregate's block at point `t` is rows `5000 t … 5000 t + 4999` of the array. -/
theorem blk1_0_apply (c : Dev nD) (t : Fin cfg1.N) (p : Fin 5000) (k : Fin 128) (n : Fin 100000) (hn : n.val = 5000 * t.val + p.val) :
    (iblk1 V c 0 t : S5000x128.Idx → EReal) (ix2 p k) = (V c main_v26 : S100000x128.Idx → EReal) (ix2 n k) := by
  obtain ⟨e0, e1, -⟩ := idx_facts1 t
  unfold iblk1
  rw [View.read_apply]
  show (V c main_v26 : S100000x128.Idx → EReal) _ = (V c main_v26 : S100000x128.Idx → EReal) _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

theorem blk1_1_apply (c : Dev nD) (t : Fin cfg1.N) (p : Fin 5000) (k : Fin 128) (n : Fin 100000) (hn : n.val = 5000 * t.val + p.val) :
    (iblk1 V c 1 t : S5000x128.Idx → EReal) (ix2 p k) = (V c main_v15 : S100000x128.Idx → EReal) (ix2 n k) := by
  obtain ⟨-, -, e0, e1, -⟩ := idx_facts1 t
  unfold iblk1
  rw [View.read_apply]
  show (V c main_v15 : S100000x128.Idx → EReal) _ = (V c main_v15 : S100000x128.Idx → EReal) _
  congr 1
  funext a
  apply Fin.ext
  match a with
  | ⟨0, _⟩ => show win1_1.index t (0 : Fin 2) * 5000 + 1 * p.val = n.val; rw [e0, hn]; omega
  | ⟨1, _⟩ => show win1_1.index t (1 : Fin 2) * 128 + 1 * k.val = k.val; rw [e1]; omega

theorem blk1_2_apply (c : Dev nD) (t : Fin cfg1.N) (k q : Fin 128) :
    (iblk1 V c 2 t : S128x128.Idx → EReal) (ix2 k q) = (V c main_arg6 : S128x128.Idx → EReal) (ix2 k q) := by
  obtain ⟨-, -, -, -, e0, e1, -⟩ := idx_facts1 t
  unfold iblk1
  rw [View.read_apply]
  show (V c main_arg6 : S128x128.Idx → EReal) _ = (V c main_arg6 : S128x128.Idx → EReal) _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem blk1_3_apply (c : Dev nD) (t : Fin cfg1.N) (q : Fin 128) :
    (iblk1 V c 3 t : S1x128.Idx → EReal) (ix2 (0 : Fin 1) q) = (V c main_v27 : S1x128.Idx → EReal) (ix2 (0 : Fin 1) q) := by
  obtain ⟨-, -, -, -, -, -, e0, e1, -⟩ := idx_facts1 t
  unfold iblk1
  rw [View.read_apply]
  show (V c main_v27 : S1x128.Idx → EReal) _ = (V c main_v27 : S1x128.Idx → EReal) _
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

theorem blk1_4_apply (c : Dev nD) (t : Fin cfg1.N) (k q : Fin 128) :
    (iblk1 V c 4 t : S128x128.Idx → EReal) (ix2 k q) = (V c main_arg8 : S128x128.Idx → EReal) (ix2 k q) := by
  obtain ⟨-, -, -, -, -, -, -, -, e0, e1, -⟩ := idx_facts1 t
  unfold iblk1
  rw [View.read_apply]
  show (V c main_arg8 : S128x128.Idx → EReal) _ = (V c main_arg8 : S128x128.Idx → EReal) _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- Entry (p, q) of the output's block at point `t` sits in the array at row `5000 t + p`, column `q`. -/
theorem emb1_5 (t : Fin cfg1.N) (p : Fin 5000) (q : Fin 128) (n : Fin 100000) (hn : n.val = 5000 * t.val + p.val) :
    ((cfg1.win 5).blk t).view.emb (ix2 p q) = (ix2 n q : S100000x128.Idx) := by
  obtain ⟨-, -, -, -, -, -, -, -, -, -, e0, e1⟩ := idx_facts1 t
  funext a
  apply Fin.ext
  match a with
  | ⟨0, _⟩ => show win1_5.index t (0 : Fin 2) * 5000 + 1 * p.val = n.val; rw [e0, hn]; omega
  | ⟨1, _⟩ => show win1_5.index t (1 : Fin 2) * 128 + 1 * q.val = q.val; rw [e1]; omega

/-- WHAT POINT `t` WRITES BACK is block `t` of the dense step of the arrays the region was entered with. -/
theorem flushed1_eq (c : Dev nD) (t : Fin cfg1.N) :
    (dat1 (F := Ideal) V c).flushed 5 t = ((cfg1.win 5).blk t).view.read (Elt Ideal)
      (Cert.Sage.lin (V c main_v26) (V c main_v15) (V c main_arg6)
        (fun j => (V c main_v27 : S1x128.Idx → EReal) (ix2 (0 : Fin 1) j)) (V c main_arg8)) := by
  show (cfg1.win 5).cut (grid1.coords t) ((dat1 V c).after 5 t) = _
  rw [after1_5]
  unfold out1_5
  rw [View.canon_unit_zero zeroOff1]
  simp only [View.ld_unit_zero (S := S5000x128) zeroOff1, View.ld_unit_zero (S := S128x128) zeroOff1, View.ld_unit_zero (S := S1x128) zeroOff1]
  funext j
  obtain ⟨p, q, rfl⟩ : ∃ (p : Fin 5000) (q : Fin 128), j = ix2 p q := ⟨j 0, j 1, eq_ix2 j⟩
  have ht : t.val < 20 := Nat.lt_of_lt_of_eq t.isLt (show cfg1.N = 20 from N_1)
  have hn : (⟨5000 * t.val + p.val, by omega⟩ : Fin 100000).val = 5000 * t.val + p.val := rfl
  rw [View.read_apply, emb1_5 t p q _ hn]
  show (k1_pay1 (F := Ideal) (iblk1 V c 0 t) (iblk1 V c 1 t) (iblk1 V c 2 t) (iblk1 V c 4 t) (iblk1 V c 3 t) : S5000x128.Idx → EReal) (ix2 p q)
    = Cert.Sage.lin (V c main_v26) (V c main_v15) (V c main_arg6)
        (fun j => (V c main_v27 : S1x128.Idx → EReal) (ix2 (0 : Fin 1) j)) (V c main_arg8) (ix2 _ q)
  rw [pay1_apply, Cert.Sage.lin_ix2, ← Cert.Sage.linAt_eq_order]
  simp only [blk1_0_apply V c t p _ _ hn, blk1_1_apply V c t p _ _ hn, blk1_2_apply V c t, blk1_3_apply V c t, blk1_4_apply V c t]

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v28).slice (win1_5.rect t)).set ↔ _
  rw [View.set_slice_whole, Rect.mem_set_unit]
  exact Iff.rfl

/-- Every row of the array is in the block of the point `row / 5000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, -, -, -, -, e0, e1⟩ := idx_facts1 ⟨(i 0).val / 5000, hlt⟩
  refine ⟨⟨(i 0).val / 5000, hlt⟩, flush1_5 _, ?_⟩
  rw [mem_blk1]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e1]; omega

/-- After the pipeline's twenty points the output array of region 1 holds `relu (A · Wl + β + h · Wr)` of the
    arrays the region was entered with. -/
theorem region1 (c : Dev nD) :
    ((dat1 (F := Ideal) V c).arrAt 5 cfg1.N : S100000x128.Idx → EReal)
      = Cert.Sage.lin (V c main_v26) (V c main_v15) (V c main_arg6)
          (fun j => (V c main_v27 : S1x128.Idx → EReal) (ix2 (0 : Fin 1) j)) (V c main_arg8) :=
  (dat1 (F := Ideal) V c).arrAt_eq_of_cover 5 _ (fun t _ => flushed1_eq V c t) cover1

end Cert.KernelIdeal.RegionValue

end
-- ==== Proof.KB34.lean ====
/-
  The kernel program's buffers after the second host stretch (the aggregate of the first layer) and the second dense
  region: the arguments and the endpoints as before, the region's output the second SAGE layer.
-/
import proofs.«429491_j53815940219287_2_alg».proof.Proof.KB12
import proofs.«429491_j53815940219287_2_alg».proof.Proof.KReg1
import Idealize.ShloMosaic.Lib.StableHlo.Run
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg) (c : Dev nD)

theorem mem_arg6 : main_arg6 ∈ argRefs := by decide
theorem mem_arg7 : main_arg7 ∈ argRefs := by decide
theorem mem_arg8 : main_arg8 ∈ argRefs := by decide

/-- The host stretch before this region writes no argument buffer. -/
theorem W3_arg (b : Ref sig .tc) (hb : b ∈ argRefs) : W3 m ρ c (Proc.devRef .tc b) = m ((c : Thread nD τ).loc b) := by
  refine Eq.trans ?_ (W2_arg m ρ c b hb)
  simp only [argRefs, List.mem_cons, List.not_mem_nil, or_false] at hb
  rcases hb with rfl | rfl | rfl | rfl | rfl | rfl | rfl | rfl | rfl | rfl | rfl | rfl | rfl | rfl
  all_goals
    exact StableHlo.after_of_forall_not_mem (b := Proc.devRef .tc _) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The host stretch leaves the buffer of the edge sources alone. -/
theorem W3_src : (W3 m ρ c (Proc.devRef .tc main_v1) : Cert.Sage.IA Cert.ReferenceIdeal.S1600000) = Cert.Sage.src (a1 m c) :=
  Eq.trans (StableHlo.after_of_forall_not_mem (b := Proc.devRef .tc _) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))) (W2_src m ρ c)

/-- The host stretch leaves the buffer of the edge destinations alone. -/
theorem W3_dst : (W3 m ρ c (Proc.devRef .tc main_v3) : Cert.Sage.IA Cert.ReferenceIdeal.S1600000) = Cert.Sage.dst (a1 m c) :=
  Eq.trans (StableHlo.after_of_forall_not_mem (b := Proc.devRef .tc _) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))) (W2_dst m ρ c)

/-- The host stretch leaves the previous layer's buffer alone. -/
theorem W3_h : (W3 m ρ c (Proc.devRef .tc main_v15) : Cert.Sage.FA Cert.ReferenceIdeal.S100000x128) = H1 m c :=
  Eq.trans (StableHlo.after_of_forall_not_mem (b := Proc.devRef .tc _) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))) (W2_h m ρ c)

/-- The host stretch leaves the aggregate of the previous layer: the gather, the scatter-add and the index preparation
    are the shared `agg`'s, read from the stored endpoints; the widening of the gathered rows is the identity over the
    extended reals. -/
theorem W3_agg : (W3 m ρ c (Proc.devRef .tc main_v26) : Cert.Sage.FA Cert.ReferenceIdeal.S100000x128)
    = Cert.Sage.agg (H1 m c) (Cert.Sage.src (a1 m c)) (Cert.Sage.dst (a1 m c)) := by
  have e : (W3 m ρ c (Proc.devRef .tc main_v26) : Cert.Sage.FA Cert.ReferenceIdeal.S100000x128)
      = Cert.Sage.agg (W2 m ρ c (Proc.devRef .tc main_v15)) (W2 m ρ c (Proc.devRef .tc main_v1))
          (W2 m ρ c (Proc.devRef .tc main_v3)) := by
    show StableHlo.after hostOps1 (W2 m ρ c) (Proc.devRef .tc main_v26) = _
    after_results_simp
    rfl
  rw [e, W2_h m ρ c, W2_src m ρ c, W2_dst m ρ c]

/-- The bias reshaped to one row, read along that row, is the bias. -/
theorem W3_bias : (fun j : Fin 128 => (V3 m ρ c main_v27 : S1x128.Idx → EReal) (ix2 (0 : Fin 1) j)) = Cert.Sage.row (a7 m c) := by
  funext j
  have e : (W3 m ρ c (Proc.devRef .tc main_v27) : S1x128.Idx → EReal)
      = shapeCast S1x128 (W2 m ρ c (Proc.devRef .tc main_arg7)) shapeCasts_S128_S1x128 := by
    show StableHlo.after hostOps1 (W2 m ρ c) (Proc.devRef .tc main_v27) = _
    after_results
    rfl
  show (W3 m ρ c (Proc.devRef .tc main_v27) : S1x128.Idx → EReal) (ix2 (0 : Fin 1) j) = _
  rw [e, W2_arg m ρ c main_arg7 mem_arg7]
  exact shapeCast_a_1a_apply _ _ 0 j

/-- After this region every argument buffer holds its launch contents. -/
theorem W4_arg (b : Ref sig .tc) (hb : b ∈ argRefs) : W4 m ρ c (Proc.devRef .tc b) = m ((c : Thread nD τ).loc b) := by
  refine Eq.trans ?_ (W3_arg m ρ c b hb)
  simp only [argRefs, List.mem_cons, List.not_mem_nil, or_false] at hb
  rcases hb with rfl | rfl | rfl | rfl | rfl | rfl | rfl | rfl | rfl | rfl | rfl | rfl | rfl | rfl
  · exact W4_of_ne m ρ c main_arg0 (by decide)
  · exact W4_of_ne m ρ c main_arg1 (by decide)
  · exact W4_of_ne m ρ c main_arg2 (by decide)
  · exact W4_of_ne m ρ c main_arg3 (by decide)
  · exact W4_of_ne m ρ c main_arg4 (by decide)
  · exact W4_of_ne m ρ c main_arg5 (by decide)
  · exact (W4_arr m ρ c 2).trans (((dat1 (V3 m ρ) c).arrAt_in 2 rfl _).trans (A_eq1 (V3 m ρ) c 2))
  · exact W4_of_ne m ρ c main_arg7 (by decide)
  · exact (W4_arr m ρ c 4).trans (((dat1 (V3 m ρ) c).arrAt_in 4 rfl _).trans (A_eq1 (V3 m ρ) c 4))
  · exact W4_of_ne m ρ c main_arg9 (by decide)
  · exact W4_of_ne m ρ c main_arg10 (by decide)
  · exact W4_of_ne m ρ c main_arg11 (by decide)
  · exact W4_of_ne m ρ c main_arg12 (by decide)
  · exact W4_of_ne m ρ c main_arg13 (by decide)

/-- After this region the buffer of the edge sources holds them. -/
theorem W4_src : (W4 m ρ c (Proc.devRef .tc main_v1) : Cert.Sage.IA Cert.ReferenceIdeal.S1600000) = Cert.Sage.src (a1 m c) :=
  (W4_of_ne m ρ c main_v1 (by decide)).trans (W3_src m ρ c)

/-- After this region the buffer of the edge destinations holds them. -/
theorem W4_dst : (W4 m ρ c (Proc.devRef .tc main_v3) : Cert.Sage.IA Cert.ReferenceIdeal.S1600000) = Cert.Sage.dst (a1 m c) :=
  (W4_of_ne m ρ c main_v3 (by decide)).trans (W3_dst m ρ c)

/-- This region's output is the next layer. -/
theorem W4_h : (W4 m ρ c (Proc.devRef .tc main_v28) : Cert.Sage.FA Cert.ReferenceIdeal.S100000x128) = H2 m c := by
  refine (W4_arr m ρ c 5).trans ?_
  refine (Cert.KernelIdeal.RegionValue.region1 (V3 m ρ) c).trans ?_
  exact lin_congr (W3_agg m ρ c) (W3_h m ρ c) (W3_arg m ρ c main_arg6 mem_arg6)
    (W3_bias m ρ c) (W3_arg m ρ c main_arg8 mem_arg8)

end Cert.KernelIdeal.Fold

end
-- ==== Proof.KReg2.lean ====
/-
  Region 2's result array as one function of the arrays the region finds: the dense SAGE step.
-/
import proofs.«429491_j53815940219287_2_alg».proof.Proof.Gen.KernelIdeal.Frame
import proofs.«429491_j53815940219287_2_alg».proof.Proof.Spec
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen

/-! ## The two products of the body, read at an index -/

/-- The left operand of the body's product, at output index `i` and contraction index `q`, on its row axis: the output's row. -/
theorem dotL2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On its column axis: the contraction index. -/
theorem dotL2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand on its row axis: the contraction index. -/
theorem dotR2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On its column axis: the output's column. -/
theorem dotR2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a 5000 × 128 block with a 128 × 128 matrix into the zero accumulator, at entry (p, q): the sum over
    `k` of the row's entries times the column's. -/
theorem mm2_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dotL2_0 _ _
    | ⟨1, _⟩ => exact (dotL2_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dotR2_0 _ _).trans hk
    | ⟨1, _⟩ => exact dotR2_1 _ _)
  rw [el, er]

/-- The bias row spread over the block's rows, at entry (p, q): the row's entry `q`. -/
theorem bias2_apply (x3 : Vec Ideal S1x128 .f32) (p : Fin 5000) (q : Fin 128) :
    broadcastTo S5000x128 x3 broadcasts_S1x128_S5000x128 (ix2 p q) = x3 (ix2 (0 : Fin 1) q) :=
  broadcastTo_apply x3 broadcasts_S1x128_S5000x128 (ix2 p q) (ix2 (0 : Fin 1) q) (fun a => match a with
    | ⟨0, _⟩ => by show (0 : ℕ) = if (1 : ℕ) = 1 then 0 else _; rw [if_pos rfl]
    | ⟨1, _⟩ => by show q.val = if (128 : ℕ) = 1 then 0 else q.val; rw [if_neg (by decide)])

/-- THE BODY'S ARITHMETIC at entry (p, q) of the block: the casts are the identity on the extended reals, each product
    into the zero accumulator is its sum, the bias row is spread over the rows, and the larger of the total and zero
    is kept. -/
theorem pay2_apply (x0 : Vec Ideal S5000x128 .f32) (x1 : Vec Ideal S5000x128 .bf16) (x2 x4 : Vec Ideal S128x128 .f32) (x3 : Vec Ideal S1x128 .f32)
    (p : Fin 5000) (q : Fin 128) :
    (k2_pay1 (F := Ideal) x0 x1 x2 x4 x3 : S5000x128.Idx → EReal) (ix2 p q)
      = max (((∑ k : Fin 128, x0 (ix2 p k) * x2 (ix2 k q)) + ∑ k : Fin 128, x1 (ix2 p k) * x4 (ix2 k q)) + x3 (ix2 (0 : Fin 1) q)) 0 := by
  unfold k2_pay1
  simp only [shapeCast_self]
  rw [truncf_apply, maximumf_apply, addf_apply, addf_apply, mm2_apply, mm2_apply, bias2_apply, broadcast_apply]
  simp only [truncf_apply]
  exact congrArg (max _) Ideal.ofBits_zero_f32

/-! ## From the blocks to the array -/

variable (V : (c : Dev nD) → (b : Ref sig .tc) → Buf (Elt Ideal) ((c : Thread nD τ).loc b))

theorem zeroOff2 : (![0, 0] : Fin 2 → Nat) = fun _ => 0 := funext fun a => by fin_cases a <;> rfl

/-- The index maps over the grid: the aggregate, the features and the output move down the rows one block a point; the
    two weight matrices and the bias row stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The aggregate's block at point `t` is rows `5000 t … 5000 t + 4999` of the array. -/
theorem blk2_0_apply (c : Dev nD) (t : Fin cfg2.N) (p : Fin 5000) (k : Fin 128) (n : Fin 100000) (hn : n.val = 5000 * t.val + p.val) :
    (iblk2 V c 0 t : S5000x128.Idx → EReal) (ix2 p k) = (V c main_v39 : S100000x128.Idx → EReal) (ix2 n k) := by
  obtain ⟨e0, e1, -⟩ := idx_facts2 t
  unfold iblk2
  rw [View.read_apply]
  show (V c main_v39 : S100000x128.Idx → EReal) _ = (V c main_v39 : S100000x128.Idx → EReal) _
  congr 1
  funext a
  apply Fin.ext
  match a with
  | ⟨0, _⟩ => show win2_0.index t (0 : Fin 2) * 5000 + 1 * p.val = n.val; rw [e0, hn]; omega
  | ⟨1, _⟩ => show win2_0.index t (1 : Fin 2) * 128 + 1 * k.val = k.val; rw [e1]; omega

theorem blk2_1_apply (c : Dev nD) (t : Fin cfg2.N) (p : Fin 5000) (k : Fin 128) (n : Fin 100000) (hn : n.val = 5000 * t.val + p.val) :
    (iblk2 V c 1 t : S5000x128.Idx → EReal) (ix2 p k) = (V c main_v28 : S100000x128.Idx → EReal) (ix2 n k) := by
  obtain ⟨-, -, e0, e1, -⟩ := idx_facts2 t
  unfold iblk2
  rw [View.read_apply]
  show (V c main_v28 : S100000x128.Idx → EReal) _ = (V c main_v28 : S100000x128.Idx → EReal) _
  congr 1
  funext a
  apply Fin.ext
  match a with
  | ⟨0, _⟩ => show win2_1.index t (0 : Fin 2) * 5000 + 1 * p.val = n.val; rw [e0, hn]; omega
  | ⟨1, _⟩ => show win2_1.index t (1 : Fin 2) * 128 + 1 * k.val = k.val; rw [e1]; omega

theorem blk2_2_apply (c : Dev nD) (t : Fin cfg2.N) (k q : Fin 128) :
    (iblk2 V c 2 t : S128x128.Idx → EReal) (ix2 k q) = (V c main_arg9 : S128x128.Idx → EReal) (ix2 k q) := by
  obtain ⟨-, -, -, -, e0, e1, -⟩ := idx_facts2 t
  unfold iblk2
  rw [View.read_apply]
  show (V c main_arg9 : S128x128.Idx → EReal) _ = (V c main_arg9 : S128x128.Idx → EReal) _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

theorem blk2_3_apply (c : Dev nD) (t : Fin cfg2.N) (q : Fin 128) :
    (iblk2 V c 3 t : S1x128.Idx → EReal) (ix2 (0 : Fin 1) q) = (V c main_v40 : S1x128.Idx → EReal) (ix2 (0 : Fin 1) q) := by
  obtain ⟨-, -, -, -, -, -, e0, e1, -⟩ := idx_facts2 t
  unfold iblk2
  rw [View.read_apply]
  show (V c main_v40 : S1x128.Idx → EReal) _ = (V c main_v40 : S1x128.Idx → EReal) _
  congr 1
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

theorem blk2_4_apply (c : Dev nD) (t : Fin cfg2.N) (k q : Fin 128) :
    (iblk2 V c 4 t : S128x128.Idx → EReal) (ix2 k q) = (V c main_arg11 : S128x128.Idx → EReal) (ix2 k q) := by
  obtain ⟨-, -, -, -, -, -, -, -, e0, e1, -⟩ := idx_facts2 t
  unfold iblk2
  rw [View.read_apply]
  show (V c main_arg11 : S128x128.Idx → EReal) _ = (V c main_arg11 : S128x128.Idx → EReal) _
  congr 1
  funext a
  apply Fin.ext
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- Entry (p, q) of the output's block at point `t` sits in the array at row `5000 t + p`, column `q`. -/
theorem emb2_5 (t : Fin cfg2.N) (p : Fin 5000) (q : Fin 128) (n : Fin 100000) (hn : n.val = 5000 * t.val + p.val) :
    ((cfg2.win 5).blk t).view.emb (ix2 p q) = (ix2 n q : S100000x128.Idx) := by
  obtain ⟨-, -, -, -, -, -, -, -, -, -, e0, e1⟩ := idx_facts2 t
  funext a
  apply Fin.ext
  match a with
  | ⟨0, _⟩ => show win2_5.index t (0 : Fin 2) * 5000 + 1 * p.val = n.val; rw [e0, hn]; omega
  | ⟨1, _⟩ => show win2_5.index t (1 : Fin 2) * 128 + 1 * q.val = q.val; rw [e1]; omega

/-- WHAT POINT `t` WRITES BACK is block `t` of the dense step of the arrays the region was entered with. -/
theorem flushed2_eq (c : Dev nD) (t : Fin cfg2.N) :
    (dat2 (F := Ideal) V c).flushed 5 t = ((cfg2.win 5).blk t).view.read (Elt Ideal)
      (Cert.Sage.lin (V c main_v39) (V c main_v28) (V c main_arg9)
        (fun j => (V c main_v40 : S1x128.Idx → EReal) (ix2 (0 : Fin 1) j)) (V c main_arg11)) := by
  show (cfg2.win 5).cut (grid2.coords t) ((dat2 V c).after 5 t) = _
  rw [after2_5]
  unfold out2_5
  rw [View.canon_unit_zero zeroOff2]
  simp only [View.ld_unit_zero (S := S5000x128) zeroOff2, View.ld_unit_zero (S := S128x128) zeroOff2, View.ld_unit_zero (S := S1x128) zeroOff2]
  funext j
  obtain ⟨p, q, rfl⟩ : ∃ (p : Fin 5000) (q : Fin 128), j = ix2 p q := ⟨j 0, j 1, eq_ix2 j⟩
  have ht : t.val < 20 := Nat.lt_of_lt_of_eq t.isLt (show cfg2.N = 20 from N_2)
  have hn : (⟨5000 * t.val + p.val, by omega⟩ : Fin 100000).val = 5000 * t.val + p.val := rfl
  rw [View.read_apply, emb2_5 t p q _ hn]
  show (k2_pay1 (F := Ideal) (iblk2 V c 0 t) (iblk2 V c 1 t) (iblk2 V c 2 t) (iblk2 V c 4 t) (iblk2 V c 3 t) : S5000x128.Idx → EReal) (ix2 p q)
    = Cert.Sage.lin (V c main_v39) (V c main_v28) (V c main_arg9)
        (fun j => (V c main_v40 : S1x128.Idx → EReal) (ix2 (0 : Fin 1) j)) (V c main_arg11) (ix2 _ q)
  rw [pay2_apply, Cert.Sage.lin_ix2, ← Cert.Sage.linAt_eq_order]
  simp only [blk2_0_apply V c t p _ _ hn, blk2_1_apply V c t p _ _ hn, blk2_2_apply V c t, blk2_3_apply V c t, blk2_4_apply V c t]

/-- An index of the array is in point `t`'s block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v41).slice (win2_5.rect t)).set ↔ _
  rw [View.set_slice_whole, Rect.mem_set_unit]
  exact Iff.rfl

/-- Every row of the array is in the block of the point `row / 5000`. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨-, -, -, -, -, -, -, -, -, -, e0, e1⟩ := idx_facts2 ⟨(i 0).val / 5000, hlt⟩
  refine ⟨⟨(i 0).val / 5000, hlt⟩, flush2_5 _, ?_⟩
  rw [mem_blk2]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hlt⟩ (1 : Fin 2) * 128 ≤ (i 1).val ∧ (i 1).val < win2_5.index ⟨(i 0).val / 5000, hlt⟩ (1 : Fin 2) * 128 + 128
    rw [e1]; omega

/-- After the pipeline's twenty points the output array of region 2 holds `relu (A · Wl + β + h · Wr)` of the
    arrays the region was entered with. -/
theorem region2 (c : Dev nD) :
    ((dat2 (F := Ideal) V c).arrAt 5 cfg2.N : S100000x128.Idx → EReal)
      = Cert.Sage.lin (V c main_v39) (V c main_v28) (V c main_arg9)
          (fun j => (V c main_v40 : S1x128.Idx → EReal) (ix2 (0 : Fin 1) j)) (V c main_arg11) :=
  (dat2 (F := Ideal) V c).arrAt_eq_of_cover 5 _ (fun t _ => flushed2_eq V c t) cover2

end Cert.KernelIdeal.RegionValue

end
-- ==== Proof.KB56.lean ====
/-
  The kernel program's buffers after the third host stretch (the aggregate of the second layer) and the third dense
  region: the arguments and the endpoints as before, the region's output the third SAGE layer.
-/
import proofs.«429491_j53815940219287_2_alg».proof.Proof.KB34
import proofs.«429491_j53815940219287_2_alg».proof.Proof.KReg2
import Idealize.ShloMosaic.Lib.StableHlo.Run
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg) (c : Dev nD)

theorem mem_arg9 : main_arg9 ∈ argRefs := by decide
theorem mem_arg10 : main_arg10 ∈ argRefs := by decide
theorem mem_arg11 : main_arg11 ∈ argRefs := by decide

/-- The host stretch before this region writes no argument buffer. -/
theorem W5_arg (b : Ref sig .tc) (hb : b ∈ argRefs) : W5 m ρ c (Proc.devRef .tc b) = m ((c : Thread nD τ).loc b) := by
  refine Eq.trans ?_ (W4_arg m ρ c b hb)
  simp only [argRefs, List.mem_cons, List.not_mem_nil, or_false] at hb
  rcases hb with rfl | rfl | rfl | rfl | rfl | rfl | rfl | rfl | rfl | rfl | rfl | rfl | rfl | rfl
  all_goals
    exact StableHlo.after_of_forall_not_mem (b := Proc.devRef .tc _) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The host stretch leaves the buffer of the edge sources alone. -/
theorem W5_src : (W5 m ρ c (Proc.devRef .tc main_v1) : Cert.Sage.IA Cert.ReferenceIdeal.S1600000) = Cert.Sage.src (a1 m c) :=
  Eq.trans (StableHlo.after_of_forall_not_mem (b := Proc.devRef .tc _) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))) (W4_src m ρ c)

/-- The host stretch leaves the buffer of the edge destinations alone. -/
theorem W5_dst : (W5 m ρ c (Proc.devRef .tc main_v3) : Cert.Sage.IA Cert.ReferenceIdeal.S1600000) = Cert.Sage.dst (a1 m c) :=
  Eq.trans (StableHlo.after_of_forall_not_mem (b := Proc.devRef .tc _) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))) (W4_dst m ρ c)

/-- The host stretch leaves the previous layer's buffer alone. -/
theorem W5_h : (W5 m ρ c (Proc.devRef .tc main_v28) : Cert.Sage.FA Cert.ReferenceIdeal.S100000x128) = H2 m c :=
  Eq.trans (StableHlo.after_of_forall_not_mem (b := Proc.devRef .tc _) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))) (W4_h m ρ c)

/-- The host stretch leaves the aggregate of the previous layer: the gather, the scatter-add and the index preparation
    are the shared `agg`'s, read from the stored endpoints; the widening of the gathered rows is the identity over the
    extended reals. -/
theorem W5_agg : (W5 m ρ c (Proc.devRef .tc main_v39) : Cert.Sage.FA Cert.ReferenceIdeal.S100000x128)
    = Cert.Sage.agg (H2 m c) (Cert.Sage.src (a1 m c)) (Cert.Sage.dst (a1 m c)) := by
  have e : (W5 m ρ c (Proc.devRef .tc main_v39) : Cert.Sage.FA Cert.ReferenceIdeal.S100000x128)
      = Cert.Sage.agg (W4 m ρ c (Proc.devRef .tc main_v28)) (W4 m ρ c (Proc.devRef .tc main_v1))
          (W4 m ρ c (Proc.devRef .tc main_v3)) := by
    show StableHlo.after hostOps2 (W4 m ρ c) (Proc.devRef .tc main_v39) = _
    after_results_simp
    rfl
  rw [e, W4_h m ρ c, W4_src m ρ c, W4_dst m ρ c]

/-- The bias reshaped to one row, read along that row, is the bias. -/
theorem W5_bias : (fun j : Fin 128 => (V5 m ρ c main_v40 : S1x128.Idx → EReal) (ix2 (0 : Fin 1) j)) = Cert.Sage.row (a10 m c) := by
  funext j
  have e : (W5 m ρ c (Proc.devRef .tc main_v40) : S1x128.Idx → EReal)
      = shapeCast S1x128 (W4 m ρ c (Proc.devRef .tc main_arg10)) shapeCasts_S128_S1x128 := by
    show StableHlo.after hostOps2 (W4 m ρ c) (Proc.devRef .tc main_v40) = _
    after_results
    rfl
  show (W5 m ρ c (Proc.devRef .tc main_v40) : S1x128.Idx → EReal) (ix2 (0 : Fin 1) j) = _
  rw [e, W4_arg m ρ c main_arg10 mem_arg10]
  exact shapeCast_a_1a_apply _ _ 0 j

/-- After this region every argument buffer holds its launch contents. -/
theorem W6_arg (b : Ref sig .tc) (hb : b ∈ argRefs) : W6 m ρ c (Proc.devRef .tc b) = m ((c : Thread nD τ).loc b) := by
  refine Eq.trans ?_ (W5_arg m ρ c b hb)
  simp only [argRefs, List.mem_cons, List.not_mem_nil, or_false] at hb
  rcases hb with rfl | rfl | rfl | rfl | rfl | rfl | rfl | rfl | rfl | rfl | rfl | rfl | rfl | rfl
  · exact W6_of_ne m ρ c main_arg0 (by decide)
  · exact W6_of_ne m ρ c main_arg1 (by decide)
  · exact W6_of_ne m ρ c main_arg2 (by decide)
  · exact W6_of_ne m ρ c main_arg3 (by decide)
  · exact W6_of_ne m ρ c main_arg4 (by decide)
  · exact W6_of_ne m ρ c main_arg5 (by decide)
  · exact W6_of_ne m ρ c main_arg6 (by decide)
  · exact W6_of_ne m ρ c main_arg7 (by decide)
  · exact W6_of_ne m ρ c main_arg8 (by decide)
  · exact (W6_arr m ρ c 2).trans (((dat2 (V5 m ρ) c).arrAt_in 2 rfl _).trans (A_eq2 (V5 m ρ) c 2))
  · exact W6_of_ne m ρ c main_arg10 (by decide)
  · exact (W6_arr m ρ c 4).trans (((dat2 (V5 m ρ) c).arrAt_in 4 rfl _).trans (A_eq2 (V5 m ρ) c 4))
  · exact W6_of_ne m ρ c main_arg12 (by decide)
  · exact W6_of_ne m ρ c main_arg13 (by decide)

/-- After this region the buffer of the edge sources holds them. -/
theorem W6_src : (W6 m ρ c (Proc.devRef .tc main_v1) : Cert.Sage.IA Cert.ReferenceIdeal.S1600000) = Cert.Sage.src (a1 m c) :=
  (W6_of_ne m ρ c main_v1 (by decide)).trans (W5_src m ρ c)

/-- After this region the buffer of the edge destinations holds them. -/
theorem W6_dst : (W6 m ρ c (Proc.devRef .tc main_v3) : Cert.Sage.IA Cert.ReferenceIdeal.S1600000) = Cert.Sage.dst (a1 m c) :=
  (W6_of_ne m ρ c main_v3 (by decide)).trans (W5_dst m ρ c)

/-- This region's output is the next layer. -/
theorem W6_h : (W6 m ρ c (Proc.devRef .tc main_v41) : Cert.Sage.FA Cert.ReferenceIdeal.S100000x128) = H3 m c := by
  refine (W6_arr m ρ c 5).trans ?_
  refine (Cert.KernelIdeal.RegionValue.region2 (V5 m ρ) c).trans ?_
  exact lin_congr (W5_agg m ρ c) (W5_h m ρ c) (W5_arg m ρ c main_arg9 mem_arg9)
    (W5_bias m ρ c) (W5_arg m ρ c main_arg11 mem_arg11)

end Cert.KernelIdeal.Fold

end
-- ==== Proof.KPoolBody.lean ====
/-
  The pooling kernel's body at one grid point: what it leaves in the accumulator.
-/
import proofs.«429491_j53815940219287_2_alg».proof.Proof.Gen.KernelIdeal.Frame
import proofs.«429491_j53815940219287_2_alg».proof.Proof.Spec
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.PoolValue

open Cert.KernelIdeal Cert.KernelIdeal.Gen

/-- One block's contribution to entry (g, d): feature `d` of the block's rows whose id word is `g`'s, selected by a
    0/1 factor. -/
def blockSum (x0 : Vec Ideal S5000x128 .bf16) (x1 : Vec Ideal S5000x1 .i32) (g d : Fin 128) : EReal :=
  ∑ r : Fin 5000, (if x1 (ix2 r (0 : Fin 1)) = BitVec.ofNat 32 g.val then (1 : EReal) else 0) * x0 (ix2 r d)

/-! ## What the stores leave: each case's pieces read back as one payload -/

section Pieces
variable {F : FTy → Type} [FloatOps F]

/-- The origin of a rank-2 block, as the constant-zero offset. -/
theorem hz : (![0, 0] : Fin 2 → Nat) = fun _ => 0 := funext fun a => by fin_cases a <;> rfl

/-- At a later point the one store covers the block: the accumulator ends at the update of the ids block, the feature
    block and what it held. -/
theorem piece_B (c : Dev nD) (i : grid3.Coords) (a1 : Memref sig .tc .vmem S5000x128 .bf16) (h1 : a1.IsWhole)
    (a2 : Memref sig .tc .vmem S5000x1 .i32) (h2 : a2.IsWhole) (a3 : Memref sig .tc .vmem S128x128 .f32) (h3 : a3.IsWhole)
    (hc : ¬cond3_0 i) (x0 : Vec F S5000x128 .bf16) (x1 : Vec F S5000x1 .i32) (xo : Vec F S128x128 .f32) :
    out3_B_2 (F := F) c i a1 h1 a2 h2 a3 h3 hc x0 x1 xo = k3_pay2 x1 x0 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero hz]
  simp only [View.readAt_eq_ld, h1.read_unread, h2.read_unread, h3.read_unread, View.ld_unit_zero (S := S5000x128) hz,
    View.ld_unit_zero (S := S5000x1) hz, View.ld_unit_zero (S := S128x128) hz]

/-- At the first point the zero block is stored, read back, and covered by the update: the accumulator ends at the
    update over the zero block. -/
theorem piece_A (c : Dev nD) (i : grid3.Coords) (a1 : Memref sig .tc .vmem S5000x128 .bf16) (h1 : a1.IsWhole)
    (a2 : Memref sig .tc .vmem S5000x1 .i32) (h2 : a2.IsWhole) (a3 : Memref sig .tc .vmem S128x128 .f32) (h3 : a3.IsWhole)
    (hc : cond3_0 i) (x0 : Vec F S5000x128 .bf16) (x1 : Vec F S5000x1 .i32) :
    out3_A_2 (F := F) c i a1 h1 a2 h2 a3 h3 hc x0 x1 = k3_pay2 x1 x0 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S128x128) hz, View.readCov_unit_zero (S := S128x128) _ hz]
  simp only [View.readAt_eq_ld, h1.read_unread, h2.read_unread, View.ld_unit_zero (S := S5000x128) hz,
    View.ld_unit_zero (S := S5000x1) hz]

end Pieces

/-! ## The product's operand indices: both operands are contracted on their row axis -/

/-- The left operand's row is the contraction position … -/
theorem lhs_pool_0 (j : S128x128.Idx) (q : dot_S5000x128_S5000x128_S128x128_0_0_1_1_n_n.contr.Idx) :
    (dot_S5000x128_S5000x128_S128x128_0_0_1_1_n_n.lhsIdx j q 0).val = (q ⟨0, by decide⟩).val :=
  dot_S5000x128_S5000x128_S128x128_0_0_1_1_n_n.lhsIdx_val_of_single rfl j q
/-- … and its column the result's row. -/
theorem lhs_pool_1 (j : S128x128.Idx) (q : dot_S5000x128_S5000x128_S128x128_0_0_1_1_n_n.contr.Idx) :
    (dot_S5000x128_S5000x128_S128x128_0_0_1_1_n_n.lhsIdx j q 1).val = (j 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
/-- The right operand's row is the contraction position … -/
theorem rhs_pool_0 (j : S128x128.Idx) (q : dot_S5000x128_S5000x128_S128x128_0_0_1_1_n_n.contr.Idx) :
    (dot_S5000x128_S5000x128_S128x128_0_0_1_1_n_n.rhsIdx j q 0).val = (q ⟨0, by decide⟩).val :=
  dot_S5000x128_S5000x128_S128x128_0_0_1_1_n_n.rhsIdx_val_of_single rfl j q
/-- … and its column the result's column. -/
theorem rhs_pool_1 (j : S128x128.Idx) (q : dot_S5000x128_S5000x128_S128x128_0_0_1_1_n_n.contr.Idx) :
    (dot_S5000x128_S5000x128_S128x128_0_0_1_1_n_n.rhsIdx j q 1).val = (j 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

/-- The product into the zero block at entry (g, d): the sum over the rows r of A[r, g] · B[r, d]. -/
theorem matmul_pool_apply (A B : FVec Ideal S5000x128 .bf16) (g d : Fin 128) :
    matmul dot_S5000x128_S5000x128_S128x128_0_0_1_1_n_n none A B (constant (F := Ideal) S128x128 .f32 0x00000000#32) (ix2 g d)
      = ∑ r : Fin 5000, A (ix2 r g) * B (ix2 r d) := by
  simp only [matmul]
  rw [Ideal.matmul_constant_zero_apply, ← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have el : dot_S5000x128_S5000x128_S128x128_0_0_1_1_n_n.lhsIdx (ix2 g d) ((contrEquiv1 dot_S5000x128_S5000x128_S128x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x128_S5000x128_S128x128_0_0_1_1_n_n.rhsIdx (ix2 g d) ((contrEquiv1 dot_S5000x128_S5000x128_S128x128_0_0_1_1_n_n 5000 rfl rfl).symm k) = ix2 k d := funext fun a => Fin.ext (by
    match a with
    | ⟨0, _⟩ => exact (rhs_pool_0 _ _).trans hk
    | ⟨1, _⟩ => exact rhs_pool_1 _ _)
  rw [el, er]

/-! ## The selector: entry (r, g) is one where row r's id word is g's, zero elsewhere -/

/-- A one-bit equality test, widened to 32 bits and read signed, is 1 where the words agree and 0 where they differ. -/
theorem eq_word_toInt (a b : BitVec 32) : ((IntOp.cmpi .eq a b).setWidth 32).toInt = if a = b then (1 : ℤ) else 0 := by
  by_cases h : a = b
  · have e : IntOp.cmpi .eq a b = 1#1 := by
      show BitVec.ofBool (a == b) = 1#1
      rw [beq_iff_eq.mpr h]; rfl
    rw [if_pos h, e]; rfl
  · have e : IntOp.cmpi .eq a b = 0#1 := by
      show BitVec.ofBool (a == b) = 0#1
      rw [beq_eq_false_iff_ne.mpr h]; rfl
    rw [if_neg h, e]; rfl

/-- The ids column spread along the lanes reads, at (r, g), row r's id. -/
theorem ids_spread_apply (x1 : IVec S5000x1 32) (r : Fin 5000) (g : Fin 128) :
    broadcastTo S5000x128 x1 broadcasts_S5000x1_S5000x128 (ix2 r g) = x1 (ix2 r (0 : Fin 1)) :=
  broadcastTo_apply x1 broadcasts_S5000x1_S5000x128 (ix2 r g) (ix2 r (0 : Fin 1)) (fun a => match a with
    | ⟨0, _⟩ => by show r.val = if (5000 : Nat) = 1 then 0 else r.val; rw [if_neg (by decide)]
    | ⟨1, _⟩ => by show (0 : Nat) = if (1 : Nat) = 1 then 0 else g.val; rw [if_pos rfl])

/-- The lane counter reads, at (r, g), the word of g. -/
theorem lane_apply (r : Fin 5000) (g : Fin 128) :
    iota .tc S5000x128 32 [1] iota_S5000x128_d1_w32 (ix2 r g) = BitVec.ofNat 32 g.val :=
  iota_single_apply .tc S5000x128 32 1 iota_S5000x128_d1_w32 (ix2 r g)

/-- The selector at (r, g): the equality test of row r's id against g's word, widened, converted (exactly: an integer
    is a real) and narrowed (the identity on the extended reals). -/
theorem onehot_apply (x1 : IVec S5000x1 32) (r : Fin 5000) (g : Fin 128) :
    (truncf .bf16 (sitofp (F := Ideal) .f32 (extui 32 (cmpi .eq (broadcastTo S5000x128 x1 broadcasts_S5000x1_S5000x128)
        (iota .tc S5000x128 32 [1] iota_S5000x128_d1_w32)) natLt_1_32)) bitsLt_bf16_f32 : FVec Ideal S5000x128 .bf16) (ix2 r g)
      = if x1 (ix2 r (0 : Fin 1)) = BitVec.ofNat 32 g.val then (1 : EReal) else 0 := by
  show ((((IntOp.cmpi .eq (broadcastTo S5000x128 x1 broadcasts_S5000x1_S5000x128 (ix2 r g))
      (iota .tc S5000x128 32 [1] iota_S5000x128_d1_w32 (ix2 r g))).setWidth 32).toInt : ℝ) : EReal) = _
  rw [ids_spread_apply, lane_apply, eq_word_toInt]
  by_cases h : x1 (ix2 r (0 : Fin 1)) = BitVec.ofNat 32 g.val
  · rw [if_pos h, if_pos h, Int.cast_one, EReal.coe_one]
  · rw [if_neg h, if_neg h, Int.cast_zero, EReal.coe_zero]

/-! ## The update at one entry -/

/-- The update at entry (g, d): what the accumulator held there plus the block's contribution. -/
theorem pay2_apply (x1 : Vec Ideal S5000x1 .i32) (x0 : Vec Ideal S5000x128 .bf16) (acc : Vec Ideal S128x128 .f32) (g d : Fin 128) :
    k3_pay2 (F := Ideal) x1 x0 acc (ix2 g d) = acc (ix2 g d) + blockSum x0 x1 g d := by
  unfold k3_pay2
  dsimp only
  simp only [shapeCast_self]
  refine (addf_apply _ _ (ix2 g d)).trans ?_
  refine congrArg (acc (ix2 g d) + ·) ?_
  refine (matmul_pool_apply _ _ g d).trans ?_
  unfold blockSum
  refine Finset.sum_congr rfl fun r _ => ?_
  exact congrArg (· * x0 (ix2 r d)) (onehot_apply x1 r g)

/-- The zero block reads the extended real zero everywhere. -/
theorem pay1_apply (j : S128x128.Idx) : (k3_pay1 (F := Ideal)) j = 0 := by
  show Ideal.ofBits .f32 0x00000000#32 = 0
  exact Ideal.ofBits_zero_f32

/-- At the first point the body resets the accumulator and leaves the block's contribution. -/
theorem out_A (c : Dev nD) (i : grid3.Coords) (a1 : Memref sig .tc .vmem S5000x128 .bf16) (h1 : a1.IsWhole)
    (a2 : Memref sig .tc .vmem S5000x1 .i32) (h2 : a2.IsWhole) (a3 : Memref sig .tc .vmem S128x128 .f32) (h3 : a3.IsWhole)
    (hc : cond3_0 i) (x0 : Vec Ideal S5000x128 .bf16) (x1 : Vec Ideal S5000x1 .i32) (g d : Fin 128) :
    out3_A_2 (F := Ideal) c i a1 h1 a2 h2 a3 h3 hc x0 x1 (ix2 g d) = blockSum x0 x1 g d := by
  refine (congrFun (piece_A (F := Ideal) c i a1 h1 a2 h2 a3 h3 hc x0 x1) (ix2 g d)).trans ?_
  refine (pay2_apply x1 x0 (k3_pay1 (F := Ideal)) g d).trans ?_
  rw [pay1_apply, zero_add]

/-- At a later point the body adds the block's contribution to what the accumulator held. -/
theorem out_B (c : Dev nD) (i : grid3.Coords) (a1 : Memref sig .tc .vmem S5000x128 .bf16) (h1 : a1.IsWhole)
    (a2 : Memref sig .tc .vmem S5000x1 .i32) (h2 : a2.IsWhole) (a3 : Memref sig .tc .vmem S128x128 .f32) (h3 : a3.IsWhole)
    (hc : ¬cond3_0 i) (x0 : Vec Ideal S5000x128 .bf16) (x1 : Vec Ideal S5000x1 .i32) (xo : Vec Ideal S128x128 .f32)
    (g d : Fin 128) :
    out3_B_2 (F := Ideal) c i a1 h1 a2 h2 a3 h3 hc x0 x1 xo (ix2 g d) = xo (ix2 g d) + blockSum x0 x1 g d := by
  refine (congrFun (piece_B (F := Ideal) c i a1 h1 a2 h2 a3 h3 hc x0 x1 xo) (ix2 g d)).trans ?_
  exact pay2_apply x1 x0 xo g d

end Cert.KernelIdeal.PoolValue

end
-- ==== Proof.KPoolSum.lean ====
/-
  The pooling region's result array: the twenty blocks' contributions, summed, are the per-graph sums.
-/
import proofs.«429491_j53815940219287_2_alg».proof.Proof.KPoolBody

set_option maxRecDepth 16384

noncomputable section

open Idealize.ShloMosaic Idealize.ShloMosaic.TcCoe Idealize.ShloMosaic.ValueIdx Idealize.SL.Sem
open Idealize.ShloMosaic.Pipeline (Dat)

namespace Cert.KernelIdeal.PoolValue

open Cert.KernelIdeal Cert.KernelIdeal.Gen

variable (V : (c : Dev nD) → (b : Ref sig .tc) → Buf (Elt Ideal) ((c : Thread nD τ).loc b))

/-! ## The two arrays and their blocks, by their literal types -/

/-- The node features as the region finds them: 100000 rows of 128. -/
abbrev feats (c : Dev nD) : Vec Ideal S100000x128 .bf16 := V c main_v41
/-- The graph ids as the region finds them: a column of 100000 words. -/
abbrev idsCol (c : Dev nD) : Vec Ideal S100000x1 .i32 := V c main_v42
/-- The block of 5000 feature rows the body reads at point t. -/
abbrev fblk (c : Dev nD) (t : Fin cfg3.N) : Vec Ideal S5000x128 .bf16 := iblk3 (F := Ideal) V c 0 t
/-- The block of 5000 id words the body reads at point t. -/
abbrev gblk (c : Dev nD) (t : Fin cfg3.N) : Vec Ideal S5000x1 .i32 := iblk3 (F := Ideal) V c 1 t

/-- Row r of the feature block at point t is row 5000 t + r of the array: a block's coordinate is its index times
    its size plus the coordinate inside it. -/
theorem fblk_apply (c : Dev nD) (t : Fin cfg3.N) (r : Fin 5000) (d : Fin 128) (hlt : 5000 * t.val + r.val < 100000) :
    fblk V c t (ix2 r d) = feats V c (ix2 ⟨5000 * t.val + r.val, hlt⟩ d) := by
  have hi : win3_0.index t 0 = t.val ∧ win3_0.index t 1 = 0 :=
    (by decide +kernel : ∀ t : Fin grid3.N, win3_0.index t 0 = t.val ∧ win3_0.index t 1 = 0) t
  unfold fblk iblk3
  rw [View.read_apply]
  show V c main_v41 _ = V c main_v41 _
  congr 1
  funext a
  apply Fin.ext
  match a with
  | ⟨0, _⟩ => show win3_0.index t 0 * 5000 + 1 * r.val = 5000 * t.val + r.val; rw [hi.1]; omega
  | ⟨1, _⟩ => show win3_0.index t 1 * 128 + 1 * d.val = d.val; rw [hi.2]; omega

/-- Word r of the id block at point t is word 5000 t + r of the column. -/
theorem gblk_apply (c : Dev nD) (t : Fin cfg3.N) (r : Fin 5000) (hlt : 5000 * t.val + r.val < 100000) :
    gblk V c t (ix2 r (0 : Fin 1)) = idsCol V c (ix2 ⟨5000 * t.val + r.val, hlt⟩ (0 : Fin 1)) := by
  have hi : win3_1.index t 0 = t.val ∧ win3_1.index t 1 = 0 :=
    (by decide +kernel : ∀ t : Fin grid3.N, win3_1.index t 0 = t.val ∧ win3_1.index t 1 = 0) t
  unfold gblk iblk3
  rw [View.read_apply]
  show V c main_v42 _ = V c main_v42 _
  congr 1
  funext a
  apply Fin.ext
  match a with
  | ⟨0, _⟩ => show win3_1.index t 0 * 5000 + 1 * r.val = 5000 * t.val + r.val; rw [hi.1]; omega
  | ⟨1, _⟩ => show win3_1.index t 1 * 1 + 1 * 0 = 0; rw [hi.2]

/-! ## One row's contribution, over the naturals -/

/-- Row n's contribution to entry (g, d): feature d of row n when the row's id word is g's, zero otherwise (and zero
    past the last row, which no block reaches). -/
def term (c : Dev nD) (g d : Fin 128) (n : ℕ) : EReal :=
  if h : n < 100000 then
    (if idsCol V c (ix2 ⟨n, h⟩ (0 : Fin 1)) = BitVec.ofNat 32 g.val then (1 : EReal) else 0) * feats V c (ix2 ⟨n, h⟩ d)
  else 0

/-- The block at point t contributes its 5000 rows' terms: rows 5000 t, …, 5000 t + 4999. -/
theorem blockSum_eq (c : Dev nD) (t : Fin cfg3.N) (g d : Fin 128) :
    blockSum (fblk V c t) (gblk V c t) g d = ∑ r ∈ Finset.range 5000, term V c g d (5000 * t.val + r) := by
  have hN : t.val < 20 := lt_of_lt_of_eq t.isLt (show cfg3.N = 20 from N_3)
  unfold blockSum
  rw [← Fin.sum_univ_eq_sum_range (fun r => term V c g d (5000 * t.val + r)) 5000]
  refine Finset.sum_congr rfl fun r _ => ?_
  have hlt : 5000 * t.val + r.val < 100000 := by have := r.isLt; omega
  unfold term
  rw [dif_pos hlt, gblk_apply V c t r hlt, fblk_apply V c t r d hlt]

/-! ## The running value: after point n the accumulator holds the first 5000 (n + 1) rows' terms -/

theorem outsAt_eq (c : Dev nD) (g d : Fin 128) : ∀ (n : ℕ) (h : n < cfg3.N),
    (outsAt3 (F := Ideal) V c n h : Vec Ideal S128x128 .f32) (ix2 g d) = ∑ k ∈ Finset.range (5000 * (n + 1)), term V c g d k
  | 0, h => by
    rw [outsAt3_A V c ⟨0, h⟩ rfl]
    refine (out_A c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩)
      ((hcond3_0 ⟨0, h⟩).mpr rfl) (fblk V c ⟨0, h⟩) (gblk V c ⟨0, h⟩) g d).trans ?_
    rw [blockSum_eq V c ⟨0, h⟩ g d]
    refine Finset.sum_congr rfl fun r _ => ?_
    show term V c g d (5000 * 0 + r) = _
    rw [Nat.mul_zero, Nat.zero_add]
  | n + 1, h => by
    have hN : cfg3.N = 20 := N_3
    have hB : ¬(⟨n + 1, h⟩ : Fin cfg3.N).val % 20 = 0 := by dsimp only; omega
    rw [outsAt3_B V c ⟨n + 1, h⟩ hB]
    refine (out_B c (grid3.coords ⟨n + 1, h⟩) (ms3_0 ⟨n + 1, h⟩) (hs3_0 ⟨n + 1, h⟩) (ms3_1 ⟨n + 1, h⟩) (hs3_1 ⟨n + 1, h⟩)
      (ms3_2 ⟨n + 1, h⟩) (hs3_2 ⟨n + 1, h⟩) (fun hh => hB ((hcond3_0 ⟨n + 1, h⟩).mp hh)) (fblk V c ⟨n + 1, h⟩) (gblk V c ⟨n + 1, h⟩)
      (outsAt3 (F := Ideal) V c n (Nat.lt_of_succ_lt h)) g d).trans ?_
    rw [outsAt_eq c g d n (Nat.lt_of_succ_lt h), blockSum_eq V c ⟨n + 1, h⟩ g d,
      show 5000 * (n + 1 + 1) = 5000 * (n + 1) + 5000 from by omega, Finset.sum_range_add]

/-! ## The one write-back: after the last point, of the whole array -/

/-- The last point of the grid. -/
abbrev tLast : Fin cfg3.N := ⟨19, by rw [show cfg3.N = 20 from N_3]; decide⟩

/-- What the accumulator holds after the last point, as contents of the result array (its one block is the array). -/
abbrev result (c : Dev nD) : Buf (Elt Ideal) ((c : Thread nD τ).loc main_v43) := outsAt3 (F := Ideal) V c 19 tLast.isLt

/-- The one write-back, at the last point, writes it: block (0, 0) of the 128 × 128 array read through zero offsets
    is the array. -/
theorem flushed_eq (c : Dev nD) (t : Fin cfg3.N) (hf : (cfg3.win 2).flush t = true) :
    (dat3 (F := Ideal) V c).flushed 2 t = ((cfg3.win 2).blk t).view.read (Elt Ideal) (result V c) := by
  have hN : cfg3.N = 20 := N_3
  have h19 : t.val = 19 := by have := (flush3_2 t).mp hf; have := t.isLt; omega
  obtain rfl : t = tLast := Fin.ext h19
  show (cfg3.win 2).cut (grid3.coords tLast) ((dat3 (F := Ideal) V c).after 2 tLast) = _
  rw [after3_2]
  have hz' : (fun a => win3_2.index tLast a * main_v43.ty.shape.size a) = fun _ => 0 :=
    funext fun a => by fin_cases a <;> decide +kernel
  exact (Memref.read_access_unit_zero (Elt Ideal) main_v43 hz' (fun a => by rw [congrFun hz' a]; simp) (result V c)).symm

/-- So the result array ends holding what the accumulator held after the last point: that point's block covers it. -/
theorem final_o (c : Dev nD) : (dat3 (F := Ideal) V c).arrAt 2 cfg3.N = result V c :=
  (dat3 (F := Ideal) V c).arrAt_eq_of_cover 2 (result V c) (flushed_eq V c) fun i =>
    ⟨tLast, (flush3_2 tLast).mpr rfl, by
      show i ∈ ((View.whole main_v43).slice (win3_2.rect tLast)).set
      rw [View.set_slice_whole, Rect.mem_set_unit]
      intro a
      have h0 : (i 0 : Nat) < 128 := (i 0).isLt
      have h1 : (i 1 : Nat) < 128 := (i 1).isLt
      match a with
      | ⟨0, _⟩ => show win3_2.index tLast 0 * win3_2.size 0 ≤ (i 0 : Nat) ∧ (i 0 : Nat) < win3_2.index tLast 0 * win3_2.size 0 + win3_2.xsize (grid3.coords tLast) 0
                  rw [show win3_2.index tLast 0 * win3_2.size 0 = 0 from by decide +kernel, show win3_2.xsize (grid3.coords tLast) 0 = 128 from by decide +kernel]; omega
      | ⟨1, _⟩ => show win3_2.index tLast 1 * win3_2.size 1 ≤ (i 1 : Nat) ∧ (i 1 : Nat) < win3_2.index tLast 1 * win3_2.size 1 + win3_2.xsize (grid3.coords tLast) 1
                  rw [show win3_2.index tLast 1 * win3_2.size 1 = 0 from by decide +kernel, show win3_2.xsize (grid3.coords tLast) 1 = 128 from by decide +kernel]; omega⟩

/-! ## The claim -/

/-- After the pipeline's twenty points the pooled array holds, at (g, d), feature `d` of the rows whose id is `g`. -/
theorem region3 (c : Dev nD) :
    ((dat3 (F := Ideal) V c).arrAt 2 cfg3.N : S128x128.Idx → EReal)
      = Cert.Sage.pool (V c main_v41) (fun n => (V c main_v42 : S100000x1.Idx → BitVec 32) (ix2 n (0 : Fin 1))) := by
  rw [final_o V c]
  funext j
  obtain ⟨g, d, rfl⟩ : ∃ (g : Fin 128) (d : Fin 128), j = ix2 g d := ⟨j 0, j 1, eq_ix2 j⟩
  rw [Cert.Sage.pool_ix2, ← Cert.Sage.poolAt_eq_indicator]
  refine (outsAt_eq V c g d 19 tLast.isLt).trans ?_
  rw [← Fin.sum_univ_eq_sum_range (term V c g d) 100000]
  refine Finset.sum_congr rfl fun n _ => ?_
  unfold term
  rw [dif_pos n.isLt]

end Cert.KernelIdeal.PoolValue

end
-- ==== Proof.KB78.lean ====
/-
  The kernel program's buffers after the one-operation host stretch that lays the graph ids out as a column, and after
  the pooling region: the arguments as before, the pooled array the per-graph sums of the third layer.
-/
import proofs.«429491_j53815940219287_2_alg».proof.Proof.KB56
import proofs.«429491_j53815940219287_2_alg».proof.Proof.KPoolSum

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg) (c : Dev nD)

/-- No argument buffer is the buffer the graph ids' column is written to. -/
theorem argRefs_ne_v42 : ∀ b ∈ argRefs, b ≠ main_v42 := by decide
/-- No argument buffer is one of the pooling region's three arrays. -/
theorem argRefs_ne_arr3 : ∀ b ∈ argRefs, ∀ w, Pipeline.arrRef spec3 w ≠ b := by decide

/-- The one host operation before the pooling region writes the ids' column only: every other buffer is as before. -/
theorem W7_of_ne (b : Ref sig .tc) (hb : b ≠ main_v42) :
    W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-- After the pooling region every argument buffer holds its launch contents: the region's three arrays and the ids'
    column are no argument buffers, so the contents are those after the third dense region. -/
theorem W8_arg (b : Ref sig .tc) (hb : b ∈ argRefs) : W8 m ρ c (Proc.devRef .tc b) = m ((c : Thread nD τ).loc b) :=
  (W8_of_ne m ρ c b (argRefs_ne_arr3 b hb)).trans ((W7_of_ne m ρ c b (argRefs_ne_v42 b hb)).trans (W6_arg m ρ c b hb))

/-- The column of graph ids the pooling region reads: the ids' reshape to 100000 × 1, read at (n, 0), is id `n`
    (the two positions are the same in row-major order). -/
theorem W7_ids (n : Fin 100000) :
    (W7 m ρ c (Proc.devRef .tc main_v42) : S100000x1.Idx → BitVec 32) (ix2 n (0 : Fin 1)) = Cert.Sage.col (a2 m c) n := by
  have e : (W7 m ρ c (Proc.devRef .tc main_v42) : S100000x1.Idx → BitVec 32)
      = shapeCast S100000x1 (a2 m c) shapeCasts_S100000_S100000x1 := by
    show StableHlo.after hostOps3 (W6 m ρ c) (Proc.devRef .tc main_v42) = _
    after_results
    rw [W6_arg m ρ c main_arg2 (by decide)]
    rfl
  rw [e]
  exact shapeCast_apply _ _ (ix2 n (0 : Fin 1)) (ix1 n) (by
    rw [Shape.rowMajor_val_two, Shape.rowMajor_val_one]; show n.val = n.val * 1 + 0; omega)

/-- The pooling region's output is the per-graph sums of the third layer. -/
theorem W8_sums : (W8 m ρ c (Proc.devRef .tc main_v43) : Cert.Sage.FA Cert.ReferenceIdeal.S128x128)
    = Cert.Sage.pool (H3 m c) (Cert.Sage.col (a2 m c)) := by
  have h41 : (W7 m ρ c (Proc.devRef .tc main_v41) : Cert.Sage.FA Cert.ReferenceIdeal.S100000x128) = H3 m c :=
    (W7_of_ne m ρ c main_v41 (by decide)).trans (W6_h m ρ c)
  have h42 : (fun n : Fin 100000 => (W7 m ρ c (Proc.devRef .tc main_v42) : S100000x1.Idx → BitVec 32) (ix2 n (0 : Fin 1)))
      = Cert.Sage.col (a2 m c) := funext fun n => W7_ids m ρ c n
  refine (W8_arr m ρ c 2).trans ((Cert.KernelIdeal.PoolValue.region3 (V7 m ρ) c).trans ?_)
  show Cert.Sage.pool (W7 m ρ c (Proc.devRef .tc main_v41))
      (fun n : Fin 100000 => (W7 m ρ c (Proc.devRef .tc main_v42) : S100000x1.Idx → BitVec 32) (ix2 n (0 : Fin 1))) = _
  rw [h42, h41]

end Cert.KernelIdeal.Fold

end
-- ==== Proof.KB910.lean ====
/-
  The kernel program's result: the two host stretches after the pooling region are the shared tail, so the result
  buffer at the last boundary is the network of the launch arguments.
-/
import proofs.«429491_j53815940219287_2_alg».proof.Proof.KB78

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg) (c : Dev nD)

/-- The first stretch after the pooling, from any buffer contents: the per-graph counts (ones scatter-added onto the
    ids), the sums divided by the count floored at one, the final linear map and its bias. These are the shared
    `logits` of the four buffers it reads, operation by operation. -/
theorem logits_after (V : Valuation τ sig (Elt Ideal)) :
    (StableHlo.after hostOps4 V (Proc.devRef .tc main_v56) : Cert.Sage.FA Cert.ReferenceIdeal.S128x64)
      = Cert.Sage.logits (V (Proc.devRef .tc main_v43)) (V (Proc.devRef .tc main_arg2)) (V (Proc.devRef .tc main_arg12))
          (V (Proc.devRef .tc main_arg13)) := by
  after_results_simp
  unfold Cert.Sage.logits Cert.Sage.meanOf Cert.Sage.counts
  rfl

/-- The last stretch, from any buffer contents: the row-wise `log_softmax` of the logits' buffer. Each operation's
    value is moved to its buffer's type and back along an equation of types that is reflexivity, so the transport is
    the identity; what is left is the shared `logSoftmax`, operation by operation. -/
theorem softmax_after (V : Valuation τ sig (Elt Ideal)) :
    (StableHlo.after hostOps4_1 V (Proc.devRef .tc main_v57) : Cert.Sage.FA Cert.ReferenceIdeal.S128x64)
      = Cert.Sage.logSoftmax (V (Proc.devRef .tc main_v56)) := by
  after_results_simp
  simp only [StableHlo.TRef.ofBuf, StableHlo.TRef.toBuf, cast_eq]
  unfold Cert.Sage.logSoftmax Cert.Sage.rowMax
  rfl

/-- The result buffer at the last segment boundary holds the network's value of the launch arguments. -/
theorem W10_result : (W10 m ρ c (Proc.devRef .tc main_v57) : Cert.Sage.FA Cert.ReferenceIdeal.S128x64)
    = Cert.Sage.net (a0 m c) (a1 m c) (a2 m c) (a3 m c) (a4 m c) (a5 m c) (a6 m c) (a7 m c) (a8 m c) (a9 m c)
        (a10 m c) (a11 m c) (a12 m c) (a13 m c) := by
  -- the network is the tail of the pooled third layer, by definition
  have e0 : Cert.Sage.net (a0 m c) (a1 m c) (a2 m c) (a3 m c) (a4 m c) (a5 m c) (a6 m c) (a7 m c) (a8 m c) (a9 m c)
        (a10 m c) (a11 m c) (a12 m c) (a13 m c)
      = Cert.Sage.logSoftmax
          (Cert.Sage.logits (Cert.Sage.pool (H3 m c) (Cert.Sage.col (a2 m c))) (a2 m c) (a12 m c) (a13 m c)) := rfl
  rw [e0]
  -- the last stretch is `logSoftmax` of the logits' buffer; the one before is `logits` of the pooled sums, the ids
  -- and the final map's weights and bias as the pooling region leaves them
  refine (softmax_after (W9 m ρ c)).trans (congrArg Cert.Sage.logSoftmax ?_)
  refine (logits_after (W8 m ρ c)).trans ?_
  -- and those four buffers hold the per-graph sums of the third layer and the launch arguments
  rw [W8_sums m ρ c, W8_arg m ρ c main_arg2 (by decide), W8_arg m ρ c main_arg12 (by decide),
    W8_arg m ρ c main_arg13 (by decide)]

end Cert.KernelIdeal.Fold

end
-- ==== Proof.LibSegment.lean ====
/-
  General lemmas: a segment sum written as a scatter-add, and two index gathers, read at one element
  (at the extended reals).

  `jax.ops.segment_sum(v, ids, num_segments = C)` lowers to a `stablehlo.scatter` with an `add` body over the
  ids as an `[N, 1]` index array: update row `n` lands on segment `ids[n]` (read signed; an id outside
  `[0, C)` is dropped). At the extended reals the result at segment `c` is the operand there plus the sum of the
  updates whose id is `c` — for a vector of updates (`scatterAdd_seg1`) and for a matrix of updates scattered by
  rows (`scatterAdd_seg2`). `x[idx]` for a vector `x : [N]` and `idx : [R]` lowers to a gather over the indices as
  `[R, 1]`: element `r` is `x` at `idx[r]` read signed and clamped into `[0, N − 1]` (`gather_take1_apply`).
  `jnp.take_along_axis(x, idx[:, None], axis = 1)` for `x : [R, C]` lowers to a gather batched over the rows with
  indices `[R, 1, 1]`: element `(r, 0)` is `x[r, ·]` at `idx[r]` read signed and clamped into `[0, C − 1]`
  (`gather_along_apply`).
-/
import Idealize.ShloMosaic.PureOps.Ideal
import Idealize.ShloMosaic.Lib.ValueIdx

noncomputable section

namespace Cert.LibSegment

open Idealize.ShloMosaic Idealize.ShloMosaic.ValueIdx

/-! ## Index sets, and when an update lands on an element -/

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- An update index lands on operand index `i` exactly when, on every operand axis, the signed start plus the
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · rw [Option.some.injEq]
    constructor
    · intro e a
      rw [← e]
      have := h a
      simp only []
      omega
    · intro e
      funext a
      refine Fin.ext ?_
      have := e a
      simp only []
      omega
  · constructor
    · intro e; cases e
    · intro e
      refine absurd (fun a => ?_) h
      have := e a
      have := (i a).isLt
      omega

/-! ## Segment sums -/

/-- The scatter dimension numbers of a segment sum of a vector: operand `[C]`, ids `[N, 1]`, updates `[N]`. -/
abbrev segDims1 (N C : Nat) (wf : ScatterDims.WF ⟨1, ![C]⟩ ⟨2, ![N, 1]⟩ ⟨1, ![N]⟩ [] [0] [0] 1) :
    ScatterDims ⟨1, ![C]⟩ ⟨2, ![N, 1]⟩ ⟨1, ![N]⟩ where
  updateWindowDims := []
  insertedWindowDims := [0]
  scatterDimsToOperandDims := [0]
  indexVectorDim := 1
  wf := wf

/-- For a vector's segment sum the start of update `n` on the one operand axis is id `n` read signed. -/
theorem seg1_start {N C w : Nat} (wf : ScatterDims.WF ⟨1, ![C]⟩ ⟨2, ![N, 1]⟩ ⟨1, ![N]⟩ [] [0] [0] 1)
    (idx : IVec ⟨2, ![N, 1]⟩ w) (n : Fin N) :
    (segDims1 N C wf).start (ix1 n) idx 0 = (idx (ix2 n (0 : Fin 1))).toInt := by
  unfold ScatterDims.start
  rw [dif_pos (show (0 : Fin 1) ∈ (segDims1 N C wf).scatterDimsToOperandDims from List.mem_singleton.mpr rfl)]
  have hsi : (segDims1 N C wf).siIdx (ix1 n) ⟨List.idxOf (0 : Fin 1) (segDims1 N C wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

/-- A vector's segment sum has no window axis: the window coordinate on the operand's axis is zero. -/
theorem seg1_window {N C : Nat} (wf : ScatterDims.WF ⟨1, ![C]⟩ ⟨2, ![N, 1]⟩ ⟨1, ![N]⟩ [] [0] [0] 1)
    (j : (⟨1, ![N]⟩ : Shape).Idx) : (segDims1 N C wf).window j 0 = 0 := by
  unfold ScatterDims.window
  rw [dif_neg]
  show (0 : Fin 1) ∉ (List.finRange 1).filter (· ∉ [(0 : Fin 1)])
  decide

/-- A segment sum of a vector, at segment `c`: the operand there plus the updates whose id is `c`. -/
theorem scatterAdd_seg1 {N C w : Nat} (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal) (c : Fin C) :
    Ideal.hostScatterAdd (segDims1 N C wf) x idx upd (ix1 c)
      = x (ix1 c) + ∑ n ∈ Finset.univ.filter (fun n : Fin N => (idx (ix2 n (0 : Fin 1))).toInt = (c.val : ℤ)), upd (ix1 n) := by
  unfold Ideal.hostScatterAdd
  congr 1
  refine (Finset.sum_equiv idxEquiv1.symm (fun n => ?_) (fun n _ => rfl)).symm
  rw [Finset.mem_filter, Finset.mem_filter, resultIdx?_eq_some_iff]
  simp only [Finset.mem_univ, true_and]
  show _ ↔ ∀ a, (segDims1 N C wf).start (ix1 n) idx a + ((segDims1 N C wf).window (ix1 n) a : ℤ) = (((ix1 c : (⟨1, ![C]⟩ : Shape).Idx) a).val : ℤ)
  rw [Fin.forall_fin_one, seg1_start, seg1_window]
  simp

/-- The scatter dimension numbers of a segment sum of a matrix by rows: operand `[C, B]`, ids `[N, 1]`, updates `[N, B]`. -/
abbrev segDims2 (N C B : Nat) (wf : ScatterDims.WF ⟨2, ![C, B]⟩ ⟨2, ![N, 1]⟩ ⟨2, ![N, B]⟩ [1] [0] [0] 1) :
    ScatterDims ⟨2, ![C, B]⟩ ⟨2, ![N, 1]⟩ ⟨2, ![N, B]⟩ where
  updateWindowDims := [1]
  insertedWindowDims := [0]
  scatterDimsToOperandDims := [0]
  indexVectorDim := 1
  wf := wf

section Seg2
variable {N C B w : Nat} (wf : ScatterDims.WF ⟨2, ![C, B]⟩ ⟨2, ![N, 1]⟩ ⟨2, ![N, B]⟩ [1] [0] [0] 1)
  (idx : IVec ⟨2, ![N, 1]⟩ w)

/-- For a matrix's segment sum by rows the start of update `(n, b')` on the segment axis is id `n` read signed. -/
theorem seg2_start0 (n : Fin N) (b' : Fin B) :
    (segDims2 N C B wf).start (ix2 n b') idx 0 = (idx (ix2 n (0 : Fin 1))).toInt := by
  unfold ScatterDims.start
  rw [dif_pos (show (0 : Fin 2) ∈ (segDims2 N C B wf).scatterDimsToOperandDims from List.mem_singleton.mpr rfl)]
  have hsi : (segDims2 N C B wf).siIdx (ix2 n b') ⟨List.idxOf (0 : Fin 2) (segDims2 N C B wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The column axis is not a scattered axis: its start is zero. -/
theorem seg2_start1 (j : (⟨2, ![N, B]⟩ : Shape).Idx) : (segDims2 N C B wf).start j idx 1 = 0 := by
  unfold ScatterDims.start
  rw [dif_neg]
  show (1 : Fin 2) ∉ [(0 : Fin 2)]
  decide

/-- The segment axis is an inserted axis: its window coordinate is zero. -/
theorem seg2_window0 (j : (⟨2, ![N, B]⟩ : Shape).Idx) : (segDims2 N C B wf).window j 0 = 0 := by
  unfold ScatterDims.window
  rw [dif_neg]
  show (0 : Fin 2) ∉ (List.finRange 2).filter (· ∉ [(0 : Fin 2)])
  decide

/-- The column axis is the one window axis: its window coordinate is the update's column. -/
theorem seg2_window1 (n : Fin N) (b' : Fin B) : (segDims2 N C B wf).window (ix2 n b') 1 = b'.val := by
  unfold ScatterDims.window
  have h1 : (1 : Fin 2) ∈ (segDims2 N C B wf).sKept := by
    show (1 : Fin 2) ∈ (List.finRange 2).filter (· ∉ [(0 : Fin 2)])
    decide
  rw [dif_pos h1]
  rfl

/-- Update `(n, b')` lands on `(c, b)` exactly when id `n` read signed is `c` and the columns agree. -/
theorem seg2_resultIdx?_iff (n : Fin N) (b' : Fin B) (c : Fin C) (b : Fin B) :
    (segDims2 N C B wf).resultIdx? (ix2 n b') idx = some (ix2 c b)
      ↔ (idx (ix2 n (0 : Fin 1))).toInt = (c.val : ℤ) ∧ b' = b := by
  rw [resultIdx?_eq_some_iff, Fin.forall_fin_two]
  show (segDims2 N C B wf).start (ix2 n b') idx 0 + ((segDims2 N C B wf).window (ix2 n b') 0 : ℤ) = (c.val : ℤ) ∧
     (segDims2 N C B wf).start (ix2 n b') idx 1 + ((segDims2 N C B wf).window (ix2 n b') 1 : ℤ) = (b.val : ℤ) ↔ _
  rw [seg2_start0, seg2_start1, seg2_window0, seg2_window1, Fin.ext_iff]
  omega

end Seg2

/-- A segment sum of a matrix by rows, at segment `c` and column `b`: the operand there plus column `b` of the update
    rows whose id is `c`. -/
theorem scatterAdd_seg2 {N C B w : Nat} (wf : ScatterDims.WF ⟨2, ![C, B]⟩ ⟨2, ![N, 1]⟩ ⟨2, ![N, B]⟩ [1] [0] [0] 1)
    (x : (⟨2, ![C, B]⟩ : Shape).Idx → EReal) (idx : IVec ⟨2, ![N, 1]⟩ w) (upd : (⟨2, ![N, B]⟩ : Shape).Idx → EReal)
    (c : Fin C) (b : Fin B) :
    Ideal.hostScatterAdd (segDims2 N C B wf) x idx upd (ix2 c b)
      = x (ix2 c b) + ∑ n ∈ Finset.univ.filter (fun n : Fin N => (idx (ix2 n (0 : Fin 1))).toInt = (c.val : ℤ)), upd (ix2 n b) := by
  unfold Ideal.hostScatterAdd
  congr 1
  have key : ∀ j : (⟨2, ![N, B]⟩ : Shape).Idx, (segDims2 N C B wf).resultIdx? j idx = some (ix2 c b) →
      (idx (ix2 (idxEquiv2 j).1 (0 : Fin 1))).toInt = (c.val : ℤ) ∧ j = ix2 (idxEquiv2 j).1 b := by
    intro j hj
    obtain ⟨n, b', rfl⟩ : ∃ n b', j = ix2 n b' := ⟨_, _, eq_ix2 j⟩
    obtain ⟨h1, rfl⟩ := (seg2_resultIdx?_iff wf idx n b' c b).mp hj
    exact ⟨h1, rfl⟩
  refine Finset.sum_nbij' (fun j => (idxEquiv2 j).1) (fun n => ix2 n b) ?_ ?_ ?_ ?_ ?_
  · intro j hj
    rw [Finset.mem_filter] at hj ⊢
    exact ⟨Finset.mem_univ _, (key j hj.2).1⟩
  · intro n hn
    rw [Finset.mem_filter] at hn ⊢
    exact ⟨Finset.mem_univ _, (seg2_resultIdx?_iff wf idx n b c b).mpr ⟨hn.2, rfl⟩⟩
  · intro j hj
    rw [Finset.mem_filter] at hj
    exact (key j hj.2).2.symm
  · intro n _
    rfl
  · intro j hj
    rw [Finset.mem_filter] at hj
    exact congrArg upd (key j hj.2).2

/-! ## Index gathers -/

section Gather
variable {α : Type}

/-- The gather dimension numbers of `x[idx]` for `x : [N]`, `idx : [R]` given as `[R, 1]`. -/
abbrev takeDims1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- `x[idx]` at element `r`: `x` at `idx[r]` read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (takeDims1 N R wf) x idx (ix1 r) = x (ix1 ⟨min (idx (ix2 r (0 : Fin 1))).toInt.toNat (N - 1), by omega⟩) := by
  unfold Host.gather
  congr 1
  funext a
  obtain rfl : a = 0 := Subsingleton.elim _ _
  refine Fin.ext ?_
  show (takeDims1 N R wf).start (ix1 r) idx 0 + (takeDims1 N R wf).batchCoord (ix1 r) 0
    + (takeDims1 N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N R wf).startIndexMap from List.mem_singleton.mpr rfl)]
  have hsi : (takeDims1 N R wf).siIdx (ix1 r) ⟨List.idxOf (0 : Fin 1) (takeDims1 N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The gather dimension numbers of `take_along_axis(x, idx, axis = 1)` for `x : [R, C]`, `idx : [R, 1]` given as `[R, 1, 1]`. -/
abbrev alongDims (R C : Nat) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- `take_along_axis` at row `r`: row `r` of `x` at `idx[r]` read signed and clamped into `[0, C − 1]`. -/
theorem gather_along_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (r : Fin R) :
    Host.gather (alongDims R C wf) x idx (ix2 r (0 : Fin 1))
      = x (ix2 r ⟨min (idx (ix3 r (0 : Fin 1) (0 : Fin 1))).toInt.toNat (C - 1), by omega⟩) := by
  unfold Host.gather
  congr 1
  have h0 : (alongDims R C wf).start (ix2 r (0 : Fin 1)) idx 0 + (alongDims R C wf).batchCoord (ix2 r (0 : Fin 1)) 0
      + (alongDims R C wf).offCoord (ix2 r (0 : Fin 1)) 0 = r.val := by
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  have h1 : (alongDims R C wf).start (ix2 r (0 : Fin 1)) idx 1 + (alongDims R C wf).batchCoord (ix2 r (0 : Fin 1)) 1
      + (alongDims R C wf).offCoord (ix2 r (0 : Fin 1)) 1 = min (idx (ix3 r (0 : Fin 1) (0 : Fin 1))).toInt.toNat (C - 1) := by
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 r (0 : Fin 1)) ⟨List.idxOf (1 : Fin 2) (alongDims R C wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl
  funext a
  refine Fin.ext ?_
  match a with
  | ⟨0, _⟩ => exact h0
  | ⟨1, _⟩ => exact h1

end Gather

end Cert.LibSegment

end
-- ==== Proof.RSide.lean ====
/-
  The reference program's stages are the shared functions: each dense step is `lin` of the aggregate, the pooling
  scatter is `pool`, and the rest is the shared tail; so its result is the network of its arguments.
-/
import proofs.«429491_j53815940219287_2_alg».proof.Proof.RefRead
import proofs.«429491_j53815940219287_2_alg».proof.Proof.Shared
import proofs.«429491_j53815940219287_2_alg».proof.Proof.LibSegment
import Idealize.ShloMosaic.PureOps.Ideal.Laws

set_option maxRecDepth 16384

noncomputable section

open Idealize.ShloMosaic Idealize.ShloMosaic.TcCoe Idealize.ShloMosaic.ValueIdx

namespace Cert.ReferenceIdeal.RefValue

open Cert.ReferenceIdeal Cert.ReferenceIdeal.ReadP

variable (x0 : Cert.Sage.FA S100000x128) (x1 : Cert.Sage.IA S2x1600000) (x2 : Cert.Sage.IA S100000) (x3 : Cert.Sage.FA S128x128) (x4 : Cert.Sage.FA S128) (x5 : Cert.Sage.FA S128x128) (x6 : Cert.Sage.FA S128x128) (x7 : Cert.Sage.FA S128) (x8 : Cert.Sage.FA S128x128) (x9 : Cert.Sage.FA S128x128) (x10 : Cert.Sage.FA S128) (x11 : Cert.Sage.FA S128x128) (x12 : Cert.Sage.FA S128x64) (x13 : Cert.Sage.FA S64)

section DenseStep

open Cert.ReferenceIdeal.Gen

/-- A host product of a 100000 × 128 array with a 128 × 128 matrix, at entry (n, j): the sum over the shared axis. -/
theorem dot_at (A : Cert.Sage.FA S100000x128) (W : Cert.Sage.FA S128x128) (n : Fin 100000) (j : Fin 128) :
    Host.dotGeneral (F := Ideal) dot_S100000x128_S128x128_S100000x128_1_0_0_1_n_n none A W (ix2 n j)
      = ∑ k : Fin 128, A (ix2 n k) * W (ix2 k j) := by
  have h := val_main_v18_apply A W (ix2 n j)
  unfold val_main_v18 at h
  rw [h]
  refine Finset.sum_congr rfl fun k _ => ?_
  have el : lidx_main_v18 (ix2 n j) k = ix2 n k :=
    funext fun a => Fin.ext (by match a with | ⟨0, _⟩ => rfl | ⟨1, _⟩ => rfl)
  have er : ridx_main_v18 (ix2 n j) k = ix2 k j :=
    funext fun a => Fin.ext (by match a with | ⟨0, _⟩ => rfl | ⟨1, _⟩ => rfl)
  rw [el, er]

/-- The bias spread over the rows, at entry (n, j): the bias at column j. -/
theorem bias_at (b : Cert.Sage.FA S128) (n : Fin 100000) (j : Fin 128) :
    broadcastInDim S100000x128 ![0, 1] bcast_S1x128_S100000x128_0_1 (broadcastInDim S1x128 ![1] bcast_S128_S1x128_1 b) (ix2 n j)
      = Cert.Sage.row b j := by
  have h16 := val_main_v16_apply (F := Ideal) b (ix2 n j)
  have h15 := val_main_v15_apply (F := Ideal) b (idx_main_v16 (ix2 n j))
  unfold val_main_v16 val_main_v15 at h16
  unfold val_main_v15 at h15
  rw [h16, h15]
  unfold Cert.Sage.row
  have e : idx_main_v15 (idx_main_v16 (ix2 n j)) = ix1 j :=
    funext fun a => Fin.ext (by match a with | ⟨0, _⟩ => rfl)
  rw [e]

/-- The zero splat, at any entry: the extended real zero. -/
theorem zero_at (i : S100000x128.Idx) :
    broadcastInDim S100000x128 ![] bcast_S_S100000x128 (constant (F := Ideal) S_ .f32 0x00000000#32) i = (0 : EReal) := by
  have h := val_main_call0_v0_apply (F := Ideal) i
  unfold val_main_call0_v0 val_main_call0_cst at h
  rw [h]
  show Ideal.ofBits .f32 0x00000000#32 = 0
  exact Ideal.ofBits_zero_f32

/-- The dense step of a layer, as the host spells it, is `lin`: entry by entry the two products are the sums over the
    shared axis, the bias is read at its column, and the floor is zero; the summands stand in the same order. -/
theorem dense_eq (A h : Cert.Sage.FA S100000x128) (Wl Wr : Cert.Sage.FA S128x128) (b : Cert.Sage.FA S128) :
    maximumf (addf (addf (Host.dotGeneral (F := Ideal) dot_S100000x128_S128x128_S100000x128_1_0_0_1_n_n none A Wl)
          (broadcastInDim S100000x128 ![0, 1] bcast_S1x128_S100000x128_0_1 (broadcastInDim S1x128 ![1] bcast_S128_S1x128_1 b)))
        (Host.dotGeneral (F := Ideal) dot_S100000x128_S128x128_S100000x128_1_0_0_1_n_n none h Wr))
      (broadcastInDim S100000x128 ![] bcast_S_S100000x128 (constant (F := Ideal) S_ .f32 0x00000000#32))
    = Cert.Sage.lin A h Wl (Cert.Sage.row b) Wr := by
  funext i
  obtain ⟨n, j, rfl⟩ : ∃ (n : Fin 100000) (j : Fin 128), i = ix2 n j := ⟨i 0, i 1, eq_ix2 i⟩
  rw [Cert.Sage.lin_ix2]
  unfold Cert.Sage.linAt
  show FloatOps.maximumf (FloatOps.addf (FloatOps.addf
      (Host.dotGeneral (F := Ideal) dot_S100000x128_S128x128_S100000x128_1_0_0_1_n_n none A Wl (ix2 n j))
      (broadcastInDim S100000x128 ![0, 1] bcast_S1x128_S100000x128_0_1 (broadcastInDim S1x128 ![1] bcast_S128_S1x128_1 b) (ix2 n j)))
      (Host.dotGeneral (F := Ideal) dot_S100000x128_S128x128_S100000x128_1_0_0_1_n_n none h Wr (ix2 n j)))
      (broadcastInDim S100000x128 ![] bcast_S_S100000x128 (constant (F := Ideal) S_ .f32 0x00000000#32) (ix2 n j)) = _
  rw [dot_at, dot_at, bias_at, zero_at, Ideal.maximumf_def, Ideal.addf_def, Ideal.addf_def]

/-- The first layer's aggregate chain is `agg`: the same operations, named stage by stage. -/
theorem agg_eq1 (h : Cert.Sage.FA S100000x128) (e : Cert.Sage.IA S2x1600000) :
    Host.scatterAdd (F := Ideal) scatter_S100000x128_S1600000x1_S1600000x128_1_0_0_1 (val_main_v11 (F := Ideal))
        (val_main_v12 (F := Ideal) e)
        (Host.gather gather_S100000x128_S1600000x1_S1600000x128_1_0_n_n_0_1_1128 h (val_main_v9 (F := Ideal) e))
      = Cert.Sage.agg h (Cert.Sage.src e) (Cert.Sage.dst e) := by
  unfold val_main_v12 val_main_v11 val_main_v9 val_main_v8 val_main_v7 val_main_v6 val_main_v5 val_main_v4
    val_main_v3 val_main_v2 val_main_v1 val_main_v0 val_main_cst val_main_c val_main_c_0
    Cert.Sage.agg Cert.Sage.srcIdx Cert.Sage.src Cert.Sage.dst
  rfl

/-- The second layer's aggregate chain is `agg`. -/
theorem agg_eq2 (h : Cert.Sage.FA S100000x128) (e : Cert.Sage.IA S2x1600000) :
    Host.scatterAdd (F := Ideal) scatter_S100000x128_S1600000x1_S1600000x128_1_0_0_1 (val_main_v28 (F := Ideal))
        (val_main_v29 (F := Ideal) e)
        (Host.gather gather_S100000x128_S1600000x1_S1600000x128_1_0_n_n_0_1_1128 h (val_main_v26 (F := Ideal) e))
      = Cert.Sage.agg h (Cert.Sage.src e) (Cert.Sage.dst e) := by
  unfold val_main_v29 val_main_v28 val_main_v26 val_main_v25 val_main_v24 val_main_v23 val_main_v22 val_main_v21
    val_main_v3 val_main_v2 val_main_v1 val_main_v0 val_main_cst_3 val_main_c_1 val_main_c_2
    Cert.Sage.agg Cert.Sage.srcIdx Cert.Sage.src Cert.Sage.dst
  rfl

/-- The third layer's aggregate chain is `agg`. -/
theorem agg_eq3 (h : Cert.Sage.FA S100000x128) (e : Cert.Sage.IA S2x1600000) :
    Host.scatterAdd (F := Ideal) scatter_S100000x128_S1600000x1_S1600000x128_1_0_0_1 (val_main_v45 (F := Ideal))
        (val_main_v46 (F := Ideal) e)
        (Host.gather gather_S100000x128_S1600000x1_S1600000x128_1_0_n_n_0_1_1128 h (val_main_v43 (F := Ideal) e))
      = Cert.Sage.agg h (Cert.Sage.src e) (Cert.Sage.dst e) := by
  unfold val_main_v46 val_main_v45 val_main_v43 val_main_v42 val_main_v41 val_main_v40 val_main_v39 val_main_v38
    val_main_v3 val_main_v2 val_main_v1 val_main_v0 val_main_cst_6 val_main_c_4 val_main_c_5
    Cert.Sage.agg Cert.Sage.srcIdx Cert.Sage.src Cert.Sage.dst
  rfl

end DenseStep

/-- The first layer. -/
theorem v20_eq : val_main_v20 (F := Ideal) x0 x1 x3 x4 x5 = Cert.Sage.layer x0 x1 x3 x4 x5 := by
  unfold val_main_v20 val_main_v19 val_main_v17 val_main_v14 val_main_v16 val_main_v15 val_main_v18 val_main_v13 val_main_v10
    val_main_call0_v0 val_main_call0_cst Cert.Sage.layer
  rw [agg_eq1]
  exact dense_eq _ _ _ _ _

/-- The second layer. -/
theorem v37_eq : val_main_v37 (F := Ideal) x0 x1 x3 x4 x5 x6 x7 x8 = Cert.Sage.layer (Cert.Sage.layer x0 x1 x3 x4 x5) x1 x6 x7 x8 := by
  unfold val_main_v37 val_main_v36 val_main_v34 val_main_v31 val_main_v33 val_main_v32 val_main_v35 val_main_v30 val_main_v27
    val_main_call1_v0 val_main_call1_cst
  rw [v20_eq, agg_eq2]
  unfold Cert.Sage.layer
  exact dense_eq _ _ _ _ _

/-- The third layer. -/
theorem v54_eq : val_main_v54 (F := Ideal) x0 x1 x3 x4 x5 x6 x7 x8 x9 x10 x11
    = Cert.Sage.layer (Cert.Sage.layer (Cert.Sage.layer x0 x1 x3 x4 x5) x1 x6 x7 x8) x1 x9 x10 x11 := by
  unfold val_main_v54 val_main_v53 val_main_v51 val_main_v48 val_main_v50 val_main_v49 val_main_v52 val_main_v47 val_main_v44
    val_main_call2_v0 val_main_call2_cst
  rw [v37_eq, agg_eq3]
  unfold Cert.Sage.layer
  exact dense_eq _ _ _ _ _

/-- The pooling scatter of any array of rows `h`, from the zero array, over the graph ids laid out as a column:
    entry (g, d) is zero plus column `d` of the rows whose id, read signed, is `g`; the id in row `n` of the column
    is the id of node `n`. -/
theorem poolScatter_eq (h : Cert.Sage.FA S100000x128) :
    Host.scatterAdd (F := Ideal) scatter_S128x128_S100000x1_S100000x128_1_0_0_1 (val_main_v55 (F := Ideal))
        (val_main_v56 (F := Ideal) x2) h
      = Cert.Sage.pool h (Cert.Sage.col x2) := by
  funext i
  obtain ⟨g, d, rfl⟩ : ∃ (g d : Fin 128), i = ix2 g d := ⟨i 0, i 1, eq_ix2 i⟩
  rw [Cert.Sage.pool_ix2]
  unfold Cert.Sage.poolAt
  -- the scatter at (g, d): the operand there plus the updates of column d whose id is g
  show Ideal.hostScatterAdd (Cert.LibSegment.segDims2 100000 128 128 _) _ _ _ (ix2 g d) = _
  rw [Cert.LibSegment.scatterAdd_seg2]
  -- the operand is the zero word everywhere, and 0 + x = x
  rw [val_main_v55_apply, val_main_cst_7_apply]
  show Ideal.ofBits .f32 0x00000000#32 + _ = _
  rw [Ideal.ofBits_zero_f32, zero_add]
  -- the two sums select the same rows: row n of the id column is the id of node n
  refine Finset.sum_congr (Finset.filter_congr fun n _ => ?_) (fun n _ => rfl)
  rw [val_main_v56_apply]
  have hn : idx_main_v56 (ix2 n (0 : Fin 1)) = ix1 n := by
    funext a
    match a with
    | ⟨0, _⟩ => rfl
  rw [hn]
  rfl

/-- The pooling scatter is the per-graph sums of the third layer. -/
theorem v57_eq : val_main_v57 (F := Ideal) x0 x1 x2 x3 x4 x5 x6 x7 x8 x9 x10 x11
    = Cert.Sage.pool (Cert.Sage.layer (Cert.Sage.layer (Cert.Sage.layer x0 x1 x3 x4 x5) x1 x6 x7 x8) x1 x9 x10 x11) (Cert.Sage.col x2) := by
  unfold val_main_v57
  rw [v54_eq]
  exact poolScatter_eq x2 _

/-- The reference's result is the network of its arguments. -/
theorem v71_eq : val_main_v71 (F := Ideal) x0 x1 x2 x3 x4 x5 x6 x7 x8 x9 x10 x11 x12 x13 = Cert.Sage.net x0 x1 x2 x3 x4 x5 x6 x7 x8 x9 x10 x11 x12 x13 := by
  -- the network is the tail of the pooled sums, and the pooled sums are the pooling scatter
  show _ = Cert.Sage.tail (Cert.Sage.pool (Cert.Sage.layer (Cert.Sage.layer (Cert.Sage.layer x0 x1 x3 x4 x5) x1 x6 x7 x8) x1 x9 x10 x11) (Cert.Sage.col x2)) x2 x12 x13
  rw [← v57_eq]
  -- the stages after the pooling scatter: counts, mean, the final linear map and its bias, log-softmax
  unfold val_main_v71 val_main_call3_v10 val_main_call3_v9 val_main_call3_v8 val_main_call3_v7 val_main_call3_v6
    val_main_call3_v5 val_main_call3_v4 val_main_call3_v3 val_main_call3_v2 val_main_call3_v1 val_main_call3_v0
    val_main_call3_cst val_main_call3_cst_0 val_main_call3_cst_1
    val_main_v70 val_main_v69 val_main_v68 val_main_v67 val_main_v66 val_main_v65 val_main_v64 val_main_v63
    val_main_v62 val_main_v61 val_main_v60 val_main_v59 val_main_v58 val_main_cst_8 val_main_cst_9 val_main_cst_10
  -- the pooled sums enter both sides as one array; the same operations are applied to it on both sides
  generalize val_main_v57 (F := Ideal) x0 x1 x2 x3 x4 x5 x6 x7 x8 x9 x10 x11 = s
  unfold Cert.Sage.tail Cert.Sage.logSoftmax Cert.Sage.rowMax Cert.Sage.logits Cert.Sage.meanOf Cert.Sage.counts
  rfl

end Cert.ReferenceIdeal.RefValue

end
-- ==== Proof.lean ====
/-
  The certificate of a three-layer GraphSAGE network with mean pooling, a linear head and `log_softmax`: the kernel
  program (three tiled dense regions, one accumulating pooling region, host operations around them) against the plain
  reference, equal over the extended reals.

  Both programs aggregate neighbours by the same gather and scatter-add and end with the same tail; they differ in the
  dense step — the kernel adds `(A · Wl + h · Wr) + β` block of rows by block of rows, the reference `(A · Wl + β) + h · Wr`
  at once — and in the pooling — the kernel multiplies by a 0/1 indicator of the graph id and accumulates over twenty
  blocks, the reference scatter-adds every row onto its id. Addition of extended reals is commutative and associative,
  `0 · x = 0` and `1 · x = x` hold for every extended real, and an id outside `[0, 128)` is dropped by both, so the two
  results are one function of the arguments, `Sage.net`; no finiteness of the inputs is used.

  The frames of the two kernel programs are the generated ones; the reference's frame is its run with the result
  dropped; the idealization rewrote nothing.
-/
import proofs.«429491_j53815940219287_2_alg».proof.Defs
import proofs.«429491_j53815940219287_2_alg».proof.Proof.Gen.Kernel
import proofs.«429491_j53815940219287_2_alg».proof.Proof.Gen.Kernel.Frame
import proofs.«429491_j53815940219287_2_alg».proof.Proof.Gen.KernelIdeal
import proofs.«429491_j53815940219287_2_alg».proof.Proof.Gen.KernelIdeal.Frame
import proofs.«429491_j53815940219287_2_alg».proof.Proof.Gen.ReferenceIdeal
import proofs.«429491_j53815940219287_2_alg».proof.Proof.Gen.Pre_finite_inputs
import proofs.«429491_j53815940219287_2_alg».proof.Proof.KRun
import proofs.«429491_j53815940219287_2_alg».proof.Proof.KB910
import proofs.«429491_j53815940219287_2_alg».proof.Proof.RSide
import proofs.«429491_j53815940219287_2_alg».proof.Proof.RefRun
import proofs.«429491_j53815940219287_2_alg».proof.Proof.RefRunEq
import Idealize.ShloMosaic.Adequacy
import Idealize.ShloMosaic.Init

noncomputable section

namespace Cert.Proof

open Idealize.ShloMosaic Idealize.ShloMosaic.TcCoe Idealize.SL.Sem

/-- The word-level kernel program runs and leaves its arguments: the generated frame. -/
theorem frame_k : Cert.frame_Kernel := fun m ρ _ => Cert.Kernel.Gen.frame m ρ

/-- The idealized kernel program runs and leaves its arguments: the generated frame. -/
theorem frame_ki : Cert.frame_KernelIdeal := fun m ρ _ => Cert.KernelIdeal.Gen.frame m ρ

/-- The reference runs and leaves its arguments: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the network's value of those arguments. -/
theorem algebraic : Cert.algebraic_KernelIdeal_ReferenceIdeal := by
  intro m ρ m' ρ' _ hagree
  refine ⟨fun c => Cert.KernelIdeal.Gen.W10 m ρ c (Proc.devRef .tc Cert.KernelIdeal.main_v57), Cert.KernelIdeal.Run.run_result m ρ, ?_⟩
  refine (θ_run Cert.ReferenceIdeal.defs _ _).mono (fun _ h c => ⟨(h c).1.trans ?_, (h c).2⟩) (Cert.ReferenceIdeal.ValueP.run (F := Ideal) m' ρ')
  obtain ⟨h0, h1, h2, h3, h4, h5, h6, h7, h8, h9, h10, h11, h12, h13⟩ := hagree c
  rw [Cert.ReferenceIdeal.ReadP.val_main_v71_eq, Cert.ReferenceIdeal.RefValue.v71_eq, h0, h1, h2, h3, h4, h5, h6, h7, h8, h9, h10, h11, h12, h13]
  exact (Cert.KernelIdeal.Fold.W10_result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
